-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64x512x1024 : Shape := ⟨3, ![64, 512, 1024]⟩
abbrev S64x512 : Shape := ⟨2, ![64, 512]⟩
abbrev S1024x1024 : Shape := ⟨2, ![1024, 1024]⟩
abbrev S1x1x1024 : Shape := ⟨3, ![1, 1, 1024]⟩
abbrev S_ : Shape := ⟨0, ![]⟩

class Facts : Prop where
  bcast_S_S64x512x1024 : S_.BroadcastsInDim S64x512x1024 (![] : Fin 0 → Fin S64x512x1024.rank)
  reducesTo_S64x512x1024_S_d0_1_2 : S64x512x1024.ReducesTo [0, 1, 2] S_
  h_S_ : 0 < S_.numel
  bcast_S_S64x512 : S_.BroadcastsInDim S64x512 (![] : Fin 0 → Fin S64x512.rank)
  reducesTo_S64x512_S_d0_1 : S64x512.ReducesTo [0, 1] S_
  bcast_S_S1024x1024 : S_.BroadcastsInDim S1024x1024 (![] : Fin 0 → Fin S1024x1024.rank)
  reducesTo_S1024x1024_S_d0_1 : S1024x1024.ReducesTo [0, 1] S_
  bcast_S_S1x1x1024 : S_.BroadcastsInDim S1x1x1024 (![] : Fin 0 → Fin S1x1x1024.rank)
  reducesTo_S1x1x1024_S_d0_1_2 : S1x1x1024.ReducesTo [0, 1, 2] S_

variable [Facts]

def fn_part1 {F : FTy → Type} [FloatOps F] (main_arg4 : FVec F S1024x1024 .f32) (main_arg5 : FVec F S1x1x1024 .f32) (main_v13 : IVec S_ 1) (main_v16 : IVec S64x512 1) : IVec S_ 1 :=
  let main_c_5 : IVec S_ 1 := constantI S_ 1 1#1
  let main_v17 : IVec S_ 1 := (fun x v => Host.reduce IntOp.andi x v reducesTo_S64x512_S_d0_1 h_S_) main_v16 main_c_5
  let main_v18 : IVec S_ 1 := andi main_v13 main_v17
  let main_v19 : FVec F S1024x1024 .f32 := Host.absf main_arg4
  let main_cst_6 : FVec F S_ .f32 := constant S_ .f32 0x7F800000#32
  let main_v20 : FVec F S1024x1024 .f32 := broadcastInDim S1024x1024 ![] bcast_S_S1024x1024 main_cst_6
  let main_v21 : IVec S1024x1024 1 := cmpf .olt main_v19 main_v20
  let main_c_7 : IVec S_ 1 := constantI S_ 1 1#1
  let main_v22 : IVec S_ 1 := (fun x v => Host.reduce IntOp.andi x v reducesTo_S1024x1024_S_d0_1 h_S_) main_v21 main_c_7
  let main_v23 : IVec S_ 1 := andi main_v18 main_v22
  let main_v24 : FVec F S1x1x1024 .f32 := Host.absf main_arg5
  let main_cst_8 : FVec F S_ .f32 := constant S_ .f32 0x7F800000#32
  let main_v25 : FVec F S1x1x1024 .f32 := broadcastInDim S1x1x1024 ![] bcast_S_S1x1x1024 main_cst_8
  let main_v26 : IVec S1x1x1024 1 := cmpf .olt main_v24 main_v25
  let main_c_9 : IVec S_ 1 := constantI S_ 1 1#1
  let main_v27 : IVec S_ 1 := (fun x v => Host.reduce IntOp.andi x v reducesTo_S1x1x1024_S_d0_1_2 h_S_) main_v26 main_c_9
  let main_v28 : IVec S_ 1 := andi main_v23 main_v27
  main_v28

def fn {F : FTy → Type} [FloatOps F] (main_arg0 : FVec F S64x512x1024 .f32) (main_arg1 : FVec F S64x512x1024 .f32) (main_arg2 : FVec F S64x512 .f32) (main_arg3 : FVec F S64x512 .f32) (main_arg4 : FVec F S1024x1024 .f32) (main_arg5 : FVec F S1x1x1024 .f32) : IVec S_ 1 :=
  let main_v0 : FVec F S64x512x1024 .f32 := Host.absf main_arg0
  let main_cst : FVec F S_ .f32 := constant S_ .f32 0x7F800000#32
  let main_v1 : FVec F S64x512x1024 .f32 := broadcastInDim S64x512x1024 ![] bcast_S_S64x512x1024 main_cst
  let main_v2 : IVec S64x512x1024 1 := cmpf .olt main_v0 main_v1
  let main_c : IVec S_ 1 := constantI S_ 1 1#1
  let main_v3 : IVec S_ 1 := (fun x v => Host.reduce IntOp.andi x v reducesTo_S64x512x1024_S_d0_1_2 h_S_) main_v2 main_c
  let main_v4 : FVec F S64x512x1024 .f32 := Host.absf main_arg1
  let main_cst_0 : FVec F S_ .f32 := constant S_ .f32 0x7F800000#32
  let main_v5 : FVec F S64x512x1024 .f32 := broadcastInDim S64x512x1024 ![] bcast_S_S64x512x1024 main_cst_0
  let main_v6 : IVec S64x512x1024 1 := cmpf .olt main_v4 main_v5
  let main_c_1 : IVec S_ 1 := constantI S_ 1 1#1
  let main_v7 : IVec S_ 1 := (fun x v => Host.reduce IntOp.andi x v reducesTo_S64x512x1024_S_d0_1_2 h_S_) main_v6 main_c_1
  let main_v8 : IVec S_ 1 := andi main_v3 main_v7
  let main_v9 : FVec F S64x512 .f32 := Host.absf main_arg2
  let main_cst_2 : FVec F S_ .f32 := constant S_ .f32 0x7F800000#32
  let main_v10 : FVec F S64x512 .f32 := broadcastInDim S64x512 ![] bcast_S_S64x512 main_cst_2
  let main_v11 : IVec S64x512 1 := cmpf .olt main_v9 main_v10
  let main_c_3 : IVec S_ 1 := constantI S_ 1 1#1
  let main_v12 : IVec S_ 1 := (fun x v => Host.reduce IntOp.andi x v reducesTo_S64x512_S_d0_1 h_S_) main_v11 main_c_3
  let main_v13 : IVec S_ 1 := andi main_v8 main_v12
  let main_v14 : FVec F S64x512 .f32 := Host.absf main_arg3
  let main_cst_4 : FVec F S_ .f32 := constant S_ .f32 0x7F800000#32
  let main_v15 : FVec F S64x512 .f32 := broadcastInDim S64x512 ![] bcast_S_S64x512 main_cst_4
  let main_v16 : IVec S64x512 1 := cmpf .olt main_v14 main_v15
  fn_part1 (F := F) main_arg4 main_arg5 main_v13 main_v16
-- ==== Kernel.lean ====
abbrev S64x512x1024 : Shape := ⟨3, ![64, 512, 1024]⟩
abbrev S64x512 : Shape := ⟨2, ![64, 512]⟩
abbrev S1024x1024 : Shape := ⟨2, ![1024, 1024]⟩
abbrev S1x1x1024 : Shape := ⟨3, ![1, 1, 1024]⟩
abbrev S64x1x512 : Shape := ⟨3, ![64, 1, 512]⟩
abbrev S64x512x512 : Shape := ⟨3, ![64, 512, 512]⟩
abbrev S1x512x1024 : Shape := ⟨3, ![1, 512, 1024]⟩
abbrev S1x1x512 : Shape := ⟨3, ![1, 1, 512]⟩
abbrev S1x512x512 : Shape := ⟨3, ![1, 512, 512]⟩
abbrev S512x1024 : Shape := ⟨2, ![512, 1024]⟩
abbrev S1024 : Shape := ⟨1, ![1024]⟩
abbrev S1x1024 : Shape := ⟨2, ![1, 1024]⟩
abbrev S512x512 : Shape := ⟨2, ![512, 512]⟩
abbrev S1x512 : Shape := ⟨2, ![1, 512]⟩
abbrev S512x1 : Shape := ⟨2, ![512, 1]⟩
abbrev S512 : Shape := ⟨1, ![512]⟩

abbrev nBuf : Space → Nat
  | .hbm => 10
  | .vmem => 12
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .f32⟩
  | .hbm, ⟨2, _⟩ => ⟨S64x512, .f32⟩
  | .hbm, ⟨3, _⟩ => ⟨S64x512, .f32⟩
  | .hbm, ⟨4, _⟩ => ⟨S1024x1024, .f32⟩
  | .hbm, ⟨5, _⟩ => ⟨S1x1x1024, .f32⟩
  | .hbm, ⟨6, _⟩ => ⟨S64x1x512, .f32⟩
  | .hbm, ⟨7, _⟩ => ⟨S64x1x512, .f32⟩
  | .hbm, ⟨8, _⟩ => ⟨S1024x1024, .bf16⟩
  | .hbm, ⟨9, _⟩ => ⟨S64x512x512, .f32⟩
  | .local _ .vmem, ⟨0, _⟩ => ⟨S1x512x1024, .f32⟩
  | .local _ .vmem, ⟨1, _⟩ => ⟨S1x512x1024, .f32⟩
  | .local _ .vmem, ⟨2, _⟩ => ⟨S1x512x1024, .f32⟩
  | .local _ .vmem, ⟨3, _⟩ => ⟨S1x512x1024, .f32⟩
  | .local _ .vmem, ⟨4, _⟩ => ⟨S1x1x512, .f32⟩
  | .local _ .vmem, ⟨5, _⟩ => ⟨S1x1x512, .f32⟩
  | .local _ .vmem, ⟨6, _⟩ => ⟨S1x1x512, .f32⟩
  | .local _ .vmem, ⟨7, _⟩ => ⟨S1x1x512, .f32⟩
  | .local _ .vmem, ⟨8, _⟩ => ⟨S1024x1024, .bf16⟩
  | .local _ .vmem, ⟨9, _⟩ => ⟨S1x1x1024, .f32⟩
  | .local _ .vmem, ⟨10, _⟩ => ⟨S1x512x512, .f32⟩
  | .local _ .vmem, ⟨11, _⟩ => ⟨S1x512x512, .f32⟩
  | _, _ => ⟨S64x512x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S1x512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  shapeCasts_S64x512_S64x1x512 : S64x512.ShapeCasts S64x1x512
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  concatenates_S512x1024_S512x1024_S1024x1024_d0 : Shape.Concatenates [S512x1024, S512x1024] S1024x1024 0
  slices_S1024x1024_o0_0_S512x1024 : S1024x1024.Slices ![0, 0] S512x1024
  slices_S1024x1024_o512_0_S512x1024 : S1024x1024.Slices ![512, 0] S512x1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1024 : S1x1x1024.ShapeCasts S1024
  shapeCasts_S1024_S1x1024 : S1024.ShapeCasts S1x1024
  broadcasts_S1x1024_S512x1024 : S1x1024.Broadcasts S512x1024
  inb_S1x1x512_S1x1x512_0_0_0 : ∀ a, (![0, 0, 0] : Fin 3 → Nat) a + S1x1x512.size a ≤ S1x1x512.size a
  h_S1x1x512 : 0 < S1x1x512.numel
  shapeCasts_S1x1x512_S1x512 : S1x1x512.ShapeCasts S1x512
  transposes_S1x512_p1_0_S512x1 : S1x512.Transposes [1, 0] S512x1
  broadcasts_S512x1_S512x512 : S512x1.Broadcasts S512x512
  broadcasts_S1x512_S512x512 : S1x512.Broadcasts S512x512
  reduces_S512x512_S512 : S512x512.Reduces [1] S512
  shapeCasts_S512_S512x1 : S512.ShapeCasts S512x1
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  dot_S1024x1024_S1024x1024_S1024x1024_1_0_0_1_n_n_wf : DotDims.WF S1024x1024 S1024x1024 S1024x1024 [1] [0] [0] [1] [] []
  dot_S512x1024_S512x1024_S512x512_1_1_0_0_n_n_wf : DotDims.WF S512x1024 S512x1024 S512x512 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x512x1024.size a ≤ S64x512x1024.size a
  hwx0_0 : ∀ i : grid0.Coords, EltTy.bits .f32 = 32 ∨ (Rect.block (s := S64x512x1024) S1x512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x512x1024.size a ≤ S64x512x1024.size a
  hwx0_1 : ∀ i : grid0.Coords, EltTy.bits .f32 = 32 ∨ (Rect.block (s := S64x512x1024) S1x512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S64x1x512.size a
  hwx0_2 : ∀ i : grid0.Coords, EltTy.bits .f32 = 32 ∨ (Rect.block (s := S64x1x512) S1x1x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S64x1x512.size a
  hwx0_3 : ∀ i : grid0.Coords, EltTy.bits .f32 = 32 ∨ (Rect.block (s := S64x1x512) S1x1x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x1x1024.size a ≤ S1x1x1024.size a
  hwx0_5 : ∀ i : grid0.Coords, EltTy.bits .f32 = 32 ∨ (Rect.block (s := S1x1x1024) S1x1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1x512x512.size a ≤ S64x512x512.size a
  hwx0_6 : ∀ i : grid0.Coords, EltTy.bits .f32 = 32 ∨ (Rect.block (s := S64x512x512) S1x512x512.size (cc0_transform_6 i) (hinb0_6 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf

abbrev win0_0 : Pipeline.Window sig grid0 :=
  Pipeline.Window.ofSpec (Memref.whole main_arg0) S1x512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v2) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S1x1x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v3) S1x512x512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S64x512x1024 : Shape := ⟨3, ![64, 512, 1024]⟩
abbrev S64x512 : Shape := ⟨2, ![64, 512]⟩
abbrev S1024x1024 : Shape := ⟨2, ![1024, 1024]⟩
abbrev S1x1x1024 : Shape := ⟨3, ![1, 1, 1024]⟩
abbrev S64x512x512 : Shape := ⟨3, ![64, 512, 512]⟩
abbrev S64x512x1 : Shape := ⟨3, ![64, 512, 1]⟩
abbrev S64x1x512 : Shape := ⟨3, ![64, 1, 512]⟩
abbrev S_ : Shape := ⟨0, ![]⟩

abbrev nBuf : Space → Nat
  | .hbm => 39
  | .vmem => 0
  | .smem => 0
  | _ => 0

abbrev bufTy : (tb : Table) → Fin (tcTables nBuf tb) → BufTy
  | .hbm, ⟨0, _⟩ => ⟨S64x512x1024, .f32⟩
  | .hbm, ⟨1, _⟩ => ⟨S64x512x1024, .f32⟩
  | .hbm, ⟨2, _⟩ => ⟨S64x512, .f32⟩
  | .hbm, ⟨3, _⟩ => ⟨S64x512, .f32⟩
  | .hbm, ⟨4, _⟩ => ⟨S1024x1024, .f32⟩
  | .hbm, ⟨5, _⟩ => ⟨S1x1x1024, .f32⟩
  | .hbm, ⟨6, _⟩ => ⟨S64x512x1024, .f32⟩
  | .hbm, ⟨7, _⟩ => ⟨S64x512x1024, .f32⟩
  | .hbm, ⟨8, _⟩ => ⟨S64x512x1024, .f32⟩
  | .hbm, ⟨9, _⟩ => ⟨S64x512x1024, .f32⟩
  | .hbm, ⟨10, _⟩ => ⟨S64x512x1024, .f32⟩
  | .hbm, ⟨11, _⟩ => ⟨S64x512x1024, .f32⟩
  | .hbm, ⟨12, _⟩ => ⟨S64x512x512, .f32⟩
  | .hbm, ⟨13, _⟩ => ⟨S64x512x1, .f32⟩
  | .hbm, ⟨14, _⟩ => ⟨S64x512x512, .f32⟩
  | .hbm, ⟨15, _⟩ => ⟨S64x512x512, .f32⟩
  | .hbm, ⟨16, _⟩ => ⟨S64x1x512, .f32⟩
  | .hbm, ⟨17, _⟩ => ⟨S64x512x512, .f32⟩
  | .hbm, ⟨18, _⟩ => ⟨S64x512x512, .f32⟩
  | .hbm, ⟨19, _⟩ => ⟨S_, .f32⟩
  | .hbm, ⟨20, _⟩ => ⟨S64x512, .f32⟩
  | .hbm, ⟨21, _⟩ => ⟨S_, .f32⟩
  | .hbm, ⟨22, _⟩ => ⟨S64x512, .f32⟩
  | .hbm, ⟨23, _⟩ => ⟨S64x512, .f32⟩
  | .hbm, ⟨24, _⟩ => ⟨S64x512x1, .f32⟩
  | .hbm, ⟨25, _⟩ => ⟨S64x512x512, .f32⟩
  | .hbm, ⟨26, _⟩ => ⟨S64x512x512, .f32⟩
  | .hbm, ⟨27, _⟩ => ⟨S64x512x512, .f32⟩
  | .hbm, ⟨28, _⟩ => ⟨S_, .f32⟩
  | .hbm, ⟨29, _⟩ => ⟨S64x512, .f32⟩
  | .hbm, ⟨30, _⟩ => ⟨S64x512x1, .f32⟩
  | .hbm, ⟨31, _⟩ => ⟨S64x512x512, .f32⟩
  | .hbm, ⟨32, _⟩ => ⟨S64x512x512, .f32⟩
  | .hbm, ⟨33, _⟩ => ⟨S64x512x1, .f32⟩
  | .hbm, ⟨34, _⟩ => ⟨S64x512x512, .f32⟩
  | .hbm, ⟨35, _⟩ => ⟨S64x512x512, .f32⟩
  | .hbm, ⟨36, _⟩ => ⟨S64x1x512, .f32⟩
  | .hbm, ⟨37, _⟩ => ⟨S64x512x512, .f32⟩
  | .hbm, ⟨38, _⟩ => ⟨S64x512x512, .f32⟩
  | _, _ => ⟨S64x512x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst : Ref sig .tc := ⟨.hbm, 19, rfl⟩
abbrev main_v13 : Ref sig .tc := ⟨.hbm, 20, rfl⟩
abbrev main_cst_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_1 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]

class Facts₀ : Prop where
  bcast_S1x1x1024_S64x512x1024_0_1_2 : S1x1x1024.BroadcastsInDim S64x512x1024 (![0, 1, 2] : Fin 3 → Fin S64x512x1024.rank)
  bcast_S64x512_S64x512x1_0_1 : S64x512.BroadcastsInDim S64x512x1 (![0, 1] : Fin 2 → Fin S64x512x1.rank)
  bcast_S64x512x1_S64x512x512_0_1_2 : S64x512x1.BroadcastsInDim S64x512x512 (![0, 1, 2] : Fin 3 → Fin S64x512x512.rank)
  bcast_S64x512_S64x1x512_0_2 : S64x512.BroadcastsInDim S64x1x512 (![0, 2] : Fin 2 → Fin S64x1x512.rank)
  bcast_S64x1x512_S64x512x512_0_1_2 : S64x1x512.BroadcastsInDim S64x512x512 (![0, 1, 2] : Fin 3 → Fin S64x512x512.rank)
  reducesTo_S64x512x512_S64x512_d2 : S64x512x512.ReducesTo [2] S64x512
  h_S_ : 0 < S_.numel
  bcast_S_S64x512 : S_.BroadcastsInDim S64x512 (![] : Fin 0 → Fin S64x512.rank)
  dot_S64x512x1024_S1024x1024_S64x512x1024_2_0_01_1_n_n_wf : DotDims.WF S64x512x1024 S1024x1024 S64x512x1024 [2] [0] [0, 1] [1] [] []
  dot_S64x512x1024_S64x512x1024_S64x512x512_2_2_1_1_0_0_wf : DotDims.WF S64x512x1024 S64x512x1024 S64x512x512 [2] [2] [1] [1] [0] [0]

variable [Facts₀]

def dot_S64x512x1024_S1024x1024_S64x512x1024_2_0_01_1_n_n : DotDims S64x512x1024 S1024x1024 S64x512x1024 where
  lhsContracting := [2]
  rhsContracting := [0]
  lhsNonContracting := [0, 1]
  rhsNonContracting := [1]
  lhsBatch := []
  rhsBatch := []
  wf := dot_S64x512x1024_S1024x1024_S64x512x1024_2_0_01_1_n_n_wf
def dot_S64x512x1024_S64x512x1024_S64x512x512_2_2_1_1_0_0 : DotDims S64x512x1024 S64x512x1024 S64x512x512 where
  lhsContracting := [2]
  rhsContracting := [2]
  lhsNonContracting := [1]
  rhsNonContracting := [1]
  lhsBatch := [0]
  rhsBatch := [0]
  wf := dot_S64x512x1024_S64x512x1024_S64x512x512_2_2_1_1_0_0_wf

class Facts : Prop extends Facts₀ where

variable [Facts]
-- ==== Proof.LibRows.lean ====
/-
  Row-wise reading of two-dimensional arrays at the ideal values, for any number of rows.

  A network that treats every row of its input alike (a chain of affine layers, pointwise
  functions, joins of feature vectors and reductions along the feature axis) is one function of a
  single row. This file says so layer by layer, at the level of whole arrays: an array is
  `ofRows f` when its row `i` is `f i`, and each layer sends `ofRows f` to `ofRows` of the
  layer's row function applied to `f i`. The statements hold for every row count, so the same
  lemma reads a block of rows and the whole array.

  * `lin w b v`: the affine map `j ↦ (∑ₖ v k · w (j,k)) + b j` (weights stored output-major).
  * `cat u v`: two feature vectors joined.
  * `rowMax`, `rowSum`: the fold of `max` from `⊥`, and the sum, over a row.
-/
import Idealize.ShloMosaic.Lib.ValueIdx
import Idealize.ShloMosaic.Lib.ValueLayout
import Idealize.ShloMosaic.Lib.Pipeline.Value
import Idealize.ShloMosaic.Lib.KernelVsHost
import Idealize.ShloMosaic.Lib.IdealHost
import Idealize.ShloMosaic.PureOps.Ideal.Laws

noncomputable section

namespace Idealize.ShloMosaic.Rows

open Idealize.ShloMosaic Idealize.ShloMosaic.ValueIdx

variable {N K M : ℕ}

/-! ## Arrays as families of rows -/

/-- The array whose row `i` is `f i`. -/
def ofRows (f : Fin N → Fin K → EReal) : FVec Ideal ⟨2, ![N, K]⟩ .f32 := fun i => f (i 0) (i 1)

/-- Row `i` of an array. -/
def rowOf (A : FVec Ideal ⟨2, ![N, K]⟩ .f32) (i : Fin N) : Fin K → EReal := fun k => A (ix2 i k)

theorem rowOf_ofRows (f : Fin N → Fin K → EReal) (i : Fin N) : rowOf (ofRows f) i = f i := rfl

theorem ofRows_apply (f : Fin N → Fin K → EReal) (i : Fin N) (k : Fin K) : ofRows f (ix2 i k) = f i k := rfl

theorem ofRows_rowOf (A : FVec Ideal ⟨2, ![N, K]⟩ .f32) : ofRows (rowOf A) = A :=
  funext fun i => (congrArg A (eq_ix2 i)).symm

/-- Two arrays are equal when they agree at every (row, column). -/
theorem ext_ix2 {A B : FVec Ideal ⟨2, ![N, K]⟩ .f32} (h : ∀ i k, A (ix2 i k) = B (ix2 i k)) : A = B :=
  funext fun j => by rw [eq_ix2 j]; exact h _ _

/-! ## A plain matrix product read at (row, column) -/

theorem plain_lhs_0 (i : (⟨2, ![N, M]⟩ : Shape).Idx) (q : (DotDims.plain N K M).contr.Idx) :
    ((DotDims.plain N K M).lhsIdx i q 0).val = (i 0).val := by
  unfold DotDims.lhsIdx
  rw [dif_neg (show ¬(0 : Fin (⟨2, ![N, K]⟩ : Shape).rank) ∈ (DotDims.plain N K M).lhsBatch from List.not_mem_nil),
    dif_pos (show (0 : Fin (⟨2, ![N, K]⟩ : Shape).rank) ∈ (DotDims.plain N K M).lhsNonContracting from List.mem_singleton.mpr rfl)]
  rfl

theorem plain_lhs_1 (i : (⟨2, ![N, M]⟩ : Shape).Idx) (q : (DotDims.plain N K M).contr.Idx) :
    ((DotDims.plain N K M).lhsIdx i q 1).val = (q ⟨0, Nat.one_pos⟩).val :=
  (DotDims.plain N K M).lhsIdx_val_of_single rfl i q

theorem plain_rhs_0 (i : (⟨2, ![N, M]⟩ : Shape).Idx) (q : (DotDims.plain N K M).contr.Idx) :
    ((DotDims.plain N K M).rhsIdx i q 0).val = (q ⟨0, Nat.one_pos⟩).val :=
  (DotDims.plain N K M).rhsIdx_val_of_single rfl i q

theorem plain_rhs_1 (i : (⟨2, ![N, M]⟩ : Shape).Idx) (q : (DotDims.plain N K M).contr.Idx) :
    ((DotDims.plain N K M).rhsIdx i q 1).val = (i 1).val := by
  unfold DotDims.rhsIdx
  rw [dif_neg (show ¬(1 : Fin (⟨2, ![K, M]⟩ : Shape).rank) ∈ (DotDims.plain N K M).rhsBatch from List.not_mem_nil),
    dif_pos (show (1 : Fin (⟨2, ![K, M]⟩ : Shape).rank) ∈ (DotDims.plain N K M).rhsNonContracting from List.mem_singleton.mpr rfl)]
  rfl

/-- The sum over the one contracted axis, re-indexed by its coordinate. -/
theorem plain_sum (l : FVec Ideal ⟨2, ![N, K]⟩ .f32) (r : FVec Ideal ⟨2, ![K, M]⟩ .f32) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's matrix product into a zero accumulator, at (i, j): the sum over k of l (i,k) · r (k,j). -/
theorem matmul_plain_apply (l : FVec Ideal ⟨2, ![N, K]⟩ .f32) (r : FVec Ideal ⟨2, ![K, M]⟩ .f32) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum l r i j

/-- The host's product, at (i, j): the same sum. -/
theorem dotGeneral_plain_apply (l : FVec Ideal ⟨2, ![N, K]⟩ .f32) (r : FVec Ideal ⟨2, ![K, M]⟩ .f32) (i : Fin N) (j : Fin M) :
    Host.dotGeneral (DotDims.plain N K M) none l r (ix2 i j) = ∑ k : Fin K, l (ix2 i k) * r (ix2 k j) := by
  show FloatOps.dotGeneral (DotDims.plain N K M) none .single l r (ix2 i j) = _
  rw [Ideal.dotGeneral_apply]
  exact plain_sum l r i j

/-! ## An affine layer -/

/-- One affine layer on a row `v`: output feature `j` is `(∑ₖ v k · w (j,k)) + b j`. -/
def lin (w : FVec Ideal ⟨2, ![M, K]⟩ .f32) (b : FVec Ideal ⟨1, ![M]⟩ .f32) (v : Fin K → EReal) : Fin M → EReal :=
  fun j => (∑ k : Fin K, v k * w (ix2 j k)) + b (ix1 j)

/-- The kernel's spelling of an affine layer: product with the transposed weights into a zero accumulator, plus the
    bias laid along every row. -/
theorem klin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩) (sc : (⟨1, ![M]⟩ : Shape).ShapeCasts ⟨2, ![1, M]⟩)
    (bc : (⟨2, ![1, M]⟩ : Shape).Broadcasts ⟨2, ![N, M]⟩) :
    addf (matmul (DotDims.plain N K M) none h (transpose ⟨2, ![K, M]⟩ [1, 0] w tr) (constant ⟨2, ![N, M]⟩ .f32 0x00000000#32))
        (broadcastTo ⟨2, ![N, M]⟩ (shapeCast ⟨2, ![1, M]⟩ b sc) bc)
      = ofRows fun i => lin w b (rowOf h i) := by
  refine ext_ix2 fun i j => ?_
  rw [addf_apply, matmul_plain_apply, broadcastTo_1b_ab_apply, shapeCast_a_1a_apply, ofRows_apply]
  unfold lin rowOf
  exact congrArg (· + b (ix1 j)) (Finset.sum_congr rfl fun k _ => by rw [transpose_ix2_apply])

/-- The host's spelling: `dot_general` with the transposed weights, plus the bias broadcast in two steps. -/
theorem hlin_eq (h : FVec Ideal ⟨2, ![N, K]⟩ .f32) (w : FVec Ideal ⟨2, ![M, K]⟩ .f32) (b : FVec Ideal ⟨1, ![M]⟩ .f32)
    (tr : (⟨2, ![M, K]⟩ : Shape).Transposes [1, 0] ⟨2, ![K, M]⟩)
    (b1 : (⟨1, ![M]⟩ : Shape).BroadcastsInDim ⟨2, ![1, M]⟩ ![1])
    (b2 : (⟨2, ![1, M]⟩ : Shape).BroadcastsInDim ⟨2, ![N, M]⟩ ![0, 1]) :
    addf (Host.dotGeneral (DotDims.plain N K M) none h (transpose ⟨2, ![K, M]⟩ [1, 0] w tr))
        (broadcastInDim ⟨2, ![N, M]⟩ ![0, 1] b2 (broadcastInDim ⟨2, ![1, M]⟩ ![1] b1 b))
      = ofRows fun i => lin w b (rowOf h i) := by
  refine ext_ix2 fun i j => ?_
  rw [addf_apply, dotGeneral_plain_apply, Idealize.ShloMosaic.broadcastInDim_oneRow_apply, ofRows_apply]
  have e : broadcastInDim ⟨2, ![1, M]⟩ ![1] b1 b (ix2 (0 : Fin 1) j) = b (ix1 j) :=
    broadcastInDim_apply ![1] b1 b (ix2 (0 : Fin 1) j) (ix1 j) fun a => by
      match a with
      | ⟨0, _⟩ =>
        show j.val = if M = 1 then 0 else j.val
        split
        · have := j.isLt; omega
        · rfl
  rw [e]
  unfold lin rowOf
  exact congrArg (· + b (ix1 j)) (Finset.sum_congr rfl fun k _ => by rw [transpose_ix2_apply])

/-! ## Two feature vectors joined -/

/-- `u` followed by `v`. -/
def cat {A B C : ℕ} (hC : A + B = C) (u : Fin A → EReal) (v : Fin B → EReal) : Fin C → EReal :=
  fun j => if h : j.val < A then u ⟨j.val, h⟩ else v ⟨j.val - A, by have := j.isLt; omega⟩

/-- Joining two arrays along the feature axis joins their rows. -/
theorem cat_eq {A B C : ℕ} (hC : A + B = C) (x₁ : FVec Ideal ⟨2, ![N, A]⟩ .f32) (x₂ : FVec Ideal ⟨2, ![N, B]⟩ .f32)
    (hc : Shape.Concatenates [⟨2, ![N, A]⟩, ⟨2, ![N, B]⟩] ⟨2, ![N, C]⟩ 1) :
    concatenate ⟨2, ![N, C]⟩ 1 [⟨⟨2, ![N, A]⟩, x₁⟩, ⟨⟨2, ![N, B]⟩, x₂⟩] hc
      = ofRows fun i => cat hC (rowOf x₁ i) (rowOf x₂ i) := by
  refine ext_ix2 fun i j => ?_
  rw [ofRows_apply]
  unfold cat rowOf
  by_cases h : j.val < A
  · rw [dif_pos h]
    exact concatenate_pair_apply_left 1 x₁ x₂ hc (ix2 i j) rfl (ix2 i ⟨j.val, h⟩) fun b => by
      match b with
      | ⟨0, _⟩ => rfl
      | ⟨1, _⟩ => rfl
  · rw [dif_neg h]
    have hj := j.isLt
    refine concatenate_pair_apply_right 1 x₁ x₂ hc (ix2 i j) rfl rfl (ix2 i ⟨j.val - A, by omega⟩) (fun b hb => ?_) ?_
    · match b with
      | ⟨0, _⟩ => rfl
      | ⟨1, _⟩ => exact absurd rfl hb
    · show j.val - A + A = j.val
      omega

/-! ## Pointwise operations, row by row -/

section Pointwise
variable (x y : FVec Ideal ⟨2, ![N, K]⟩ .f32)

theorem sin_rows : sin x = ofRows fun i k => Ideal.sin (rowOf x i k) := ext_ix2 fun _ _ => rfl
theorem cos_rows : cos x = ofRows fun i k => Ideal.cos (rowOf x i k) := ext_ix2 fun _ _ => rfl
theorem exp_rows : exp x = ofRows fun i k => Ideal.exp (rowOf x i k) := ext_ix2 fun _ _ => rfl
theorem hsin_rows : Host.sin x = ofRows fun i k => Ideal.sin (rowOf x i k) := ext_ix2 fun _ _ => rfl
theorem hcos_rows : Host.cos x = ofRows fun i k => Ideal.cos (rowOf x i k) := ext_ix2 fun _ _ => rfl
theorem hexp_rows : Host.exp x = ofRows fun i k => Ideal.exp (rowOf x i k) := ext_ix2 fun _ _ => rfl
theorem addf_rows : addf x y = ofRows fun i k => rowOf x i k + rowOf y i k := ext_ix2 fun _ _ => rfl
theorem subf_rows : subf x y = ofRows fun i k => rowOf x i k - rowOf y i k := ext_ix2 fun _ _ => rfl
theorem mulf_rows : mulf x y = ofRows fun i k => rowOf x i k * rowOf y i k := ext_ix2 fun _ _ => rfl
theorem maximumf_rows : maximumf x y = ofRows fun i k => max (rowOf x i k) (rowOf y i k) := ext_ix2 fun _ _ => rfl
theorem divf_rows : divf x y = ofRows fun i k => Ideal.div (rowOf x i k) (rowOf y i k) := ext_ix2 fun _ _ => rfl
theorem hdivf_rows : Host.divf x y = ofRows fun i k => Ideal.div (rowOf x i k) (rowOf y i k) := ext_ix2 fun _ _ => rfl

end Pointwise

/-- A row of a kernel's scalar splat. -/
theorem rowOf_broadcast (b : BitVec 32) (i : Fin N) :
    rowOf (broadcast ⟨2, ![N, K]⟩ (Scalar.ofBits (F := Ideal) .f32 b)) i = fun _ => Ideal.ofBits .f32 b := rfl

/-- A row of the host's scalar constant broadcast to an array. -/
theorem rowOf_broadcastInDim_const (b : BitVec 32) (hb : (⟨0, ![]⟩ : Shape).BroadcastsInDim ⟨2, ![N, K]⟩ ![]) (i : Fin N) :
    rowOf (broadcastInDim ⟨2, ![N, K]⟩ ![] hb (constant (F := Ideal) ⟨0, ![]⟩ .f32 b)) i = fun _ => Ideal.ofBits .f32 b :=
  funext fun k => broadcastInDim_scalar_apply hb _ (ix2 i k)

/-! ## One value per row -/

/-- The one-axis array whose entry `i` is `f i`. -/
def ofVals (f : Fin N → EReal) : FVec Ideal ⟨1, ![N]⟩ .f32 := fun i => f (i 0)

/-- Entry `i` of a one-axis array. -/
def valOf (c : FVec Ideal ⟨1, ![N]⟩ .f32) (i : Fin N) : EReal := c (ix1 i)

theorem valOf_ofVals (f : Fin N → EReal) (i : Fin N) : valOf (ofVals f) i = f i := rfl

theorem ext_ix1 {a b : FVec Ideal ⟨1, ![N]⟩ .f32} (h : ∀ i, a (ix1 i) = b (ix1 i)) : a = b :=
  funext fun j => by rw [eq_ix1 j]; exact h _

theorem maximumf_vals (a b : FVec Ideal ⟨1, ![N]⟩ .f32) : maximumf a b = ofVals fun i => max (valOf a i) (valOf b i) :=
  ext_ix1 fun _ => rfl

theorem valOf_broadcast (b : BitVec 32) (i : Fin N) :
    valOf (broadcast ⟨1, ![N]⟩ (Scalar.ofBits (F := Ideal) .f32 b)) i = Ideal.ofBits .f32 b := rfl

theorem valOf_broadcastInDim_const (b : BitVec 32) (hb : (⟨0, ![]⟩ : Shape).BroadcastsInDim ⟨1, ![N]⟩ ![]) (i : Fin N) :
    valOf (broadcastInDim ⟨1, ![N]⟩ ![] hb (constant (F := Ideal) ⟨0, ![]⟩ .f32 b)) i = Ideal.ofBits .f32 b :=
  broadcastInDim_scalar_apply hb _ (ix1 i)

/-- The index a reduction over the feature axis reads: row `i`, feature `k`. -/
theorem lift_ix1 (h : (⟨2, ![N, M]⟩ : Shape).Reduces [1] ⟨1, ![N]⟩) (i : Fin N) (k : Fin M) :
    h.lift (ix1 i) k = ix2 i k :=
  funext fun a => Fin.ext (by
    match a with
    | ⟨0, _⟩ => rfl
    | ⟨1, _⟩ => rfl)

/-- The largest entry of a row, folded from the word `0xFF800000`'s value. -/
def rowMax (v : Fin M → EReal) : EReal := (Finset.univ : Finset (Fin M)).fold max (Ideal.ofBits .f32 0xFF800000#32) v

/-- A kernel's maximum along the feature axis. -/
theorem kmax_eq (x : FVec Ideal ⟨2, ![N, M]⟩ .f32) (h : (⟨2, ![N, M]⟩ : Shape).Reduces [1] ⟨1, ![N]⟩)
    (hφ : FKind.Formats .f32) (hacc : (0xFF800000#32 : BitVec 32) = FKind.maximumf.neutral .f32 hφ) :
    multiReduction .maximumf [1] ⟨1, ![N]⟩ x 0xFF800000#32 h hφ hacc = ofVals fun i => rowMax (rowOf x i) := by
  refine ext_ix1 fun i => ?_
  rw [Ideal.multiReduction_maximumf_single]
  show _ = rowMax (rowOf x i)
  unfold rowMax
  congr 1
  funext k
  exact congrArg x (lift_ix1 h i k)

/-- The host's maximum along the feature axis, from the same initial word. -/
theorem hmax_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduce FloatOps.maximumf x (constant (F := Ideal) ⟨0, ![]⟩ .f32 0xFF800000#32) h' hu
      = ofVals fun i => rowMax (rowOf x i) := by
  refine ext_ix1 fun i => ?_
  rw [Host.reduce_eq_fold_single FloatOps.maximumf x _ h' h hu]
  show _ = rowMax (rowOf x i)
  unfold rowMax
  congr 1
  funext k
  exact congrArg x (lift_ix1 h i k)

/-- A kernel's sum along the feature axis. -/
theorem ksum_eq (x : FVec Ideal ⟨2, ![N, M]⟩ .f32) (h : (⟨2, ![N, M]⟩ : Shape).Reduces [1] ⟨1, ![N]⟩)
    (hφ : FKind.Formats .f32) (hacc : (0x00000000#32 : BitVec 32) = FKind.add.neutral .f32 hφ) :
    multiReduction .add [1] ⟨1, ![N]⟩ x 0x00000000#32 h hφ hacc = ofVals fun i => ∑ k : Fin M, rowOf x i k := by
  refine ext_ix1 fun i => ?_
  rw [Ideal.multiReduction_add_single]
  exact Finset.sum_congr rfl fun k _ => congrArg x (lift_ix1 h i k)

/-- The host's sum along the feature axis from a zero initial value. -/
theorem hsum_eq (x : FVec Ideal ⟨2, ![N, M]⟩ .f32) (h' : (⟨2, ![N, M]⟩ : Shape).ReducesTo [1] ⟨1, ![N]⟩)
    (h : (⟨2, ![N, M]⟩ : Shape).Reduces [1] ⟨1, ![N]⟩) (hu : 0 < (⟨0, ![]⟩ : Shape).numel) :
    Host.reduceAdd x (constant (F := Ideal) ⟨0, ![]⟩ .f32 0x00000000#32) h' hu
      = ofVals fun i => ∑ k : Fin M, rowOf x i k := by
  refine ext_ix1 fun i => ?_
  rw [hostReduceAdd_apply, Ideal.hostReduceAdd_single h' h]
  show Ideal.ofBits .f32 0x00000000#32 + _ = _
  rw [Ideal.ofBits_zero_f32, zero_add]
  exact Finset.sum_congr rfl fun k _ => congrArg x (lift_ix1 h i k)

/-! ## One value per row laid along the row -/

/-- The kernel's way: a unit feature axis added, then broadcast along it. -/
theorem kcol_eq (c : FVec Ideal ⟨1, ![N]⟩ .f32) (sc : (⟨1, ![N]⟩ : Shape).ShapeCasts ⟨2, ![N, 1]⟩)
    (bc : (⟨2, ![N, 1]⟩ : Shape).Broadcasts ⟨2, ![N, M]⟩) :
    broadcastTo ⟨2, ![N, M]⟩ (shapeCast ⟨2, ![N, 1]⟩ c sc) bc = ofRows fun i _ => valOf c i := by
  refine ext_ix2 fun i j => ?_
  have e1 := broadcastTo_apply (shapeCast ⟨2, ![N, 1]⟩ c sc) bc (ix2 i j) (ix2 i (0 : Fin 1)) (by
    intro a
    match a with
    | ⟨0, _⟩ =>
      show i.val = if N = 1 then 0 else i.val
      split
      · have := i.isLt; omega
      · rfl
    | ⟨1, _⟩ => rfl)
  have e2 := shapeCast_apply c sc (ix2 i (0 : Fin 1)) (ix1 i) (by
    rw [Shape.rowMajor_val_two, Shape.rowMajor_val_one]; show i.val = i.val * 1 + 0; omega)
  exact e1.trans e2

/-- A unit feature axis added to a one-axis array. -/
theorem kcol1_eq (c : FVec Ideal ⟨1, ![N]⟩ .f32) (sc : (⟨1, ![N]⟩ : Shape).ShapeCasts ⟨2, ![N, 1]⟩) :
    shapeCast ⟨2, ![N, 1]⟩ c sc = ofRows fun i _ => valOf c i := by
  refine ext_ix2 fun i j => ?_
  exact shapeCast_apply c sc (ix2 i j) (ix1 i) (by
    rw [Shape.rowMajor_val_two, Shape.rowMajor_val_one]; show i.val = i.val * 1 + j.val; have := j.isLt; omega)

/-- The host's way: two `broadcast_in_dim`s. -/
theorem hcol_eq (c : FVec Ideal ⟨1, ![N]⟩ .f32) (b1 : (⟨1, ![N]⟩ : Shape).BroadcastsInDim ⟨2, ![N, 1]⟩ ![0])
    (b2 : (⟨2, ![N, 1]⟩ : Shape).BroadcastsInDim ⟨2, ![N, M]⟩ ![0, 1]) :
    broadcastInDim ⟨2, ![N, M]⟩ ![0, 1] b2 (broadcastInDim ⟨2, ![N, 1]⟩ ![0] b1 c) = ofRows fun i _ => valOf c i := by
  refine ext_ix2 fun i j => ?_
  have e1 := broadcastInDim_apply ![0, 1] b2 (broadcastInDim ⟨2, ![N, 1]⟩ ![0] b1 c) (ix2 i j) (ix2 i (0 : Fin 1)) (by
    intro a
    match a with
    | ⟨0, _⟩ =>
      show i.val = if N = 1 then 0 else i.val
      split
      · have := i.isLt; omega
      · rfl
    | ⟨1, _⟩ => rfl)
  have e2 := broadcastInDim_apply ![0] b1 c (ix2 i (0 : Fin 1)) (ix1 i) (by
    intro a
    match a with
    | ⟨0, _⟩ =>
      show i.val = if N = 1 then 0 else i.val
      split
      · have := i.isLt; omega
      · rfl)
  exact e1.trans e2

end Idealize.ShloMosaic.Rows

end
-- ==== Proof.LibDotT.lean ====
/-
  A product with output-major weights,  a · wᵀ,  read at (row, column), at the ideal values and for
  any sizes.

  The weights `w` are stored M × K (one row per OUTPUT feature); the operand `a` is N × K. Two spellings
  of the same product:
  * the kernel's: one matrix product contracting axis 1 of BOTH operands (the right operand on its
    last axis) into a zero accumulator;
  * the host's: the weights transposed to K × M first, then a plain product contracting the left
    operand's axis 1 with the transposed weights' axis 0.
  At (i, j) each is the one sum  ∑ₖ a (i, k) · w (j, k).  The statements hold for every row count, so
  the same lemma reads a block of rows and the whole array.
-/
import proofs.«430804_j87050397155952_3_alg».proof.Proof.LibRows
import Idealize.ShloMosaic.Lib.ValueIdx
import Idealize.ShloMosaic.Lib.ValueLayout
import Idealize.ShloMosaic.Lib.Pipeline.Value
import Idealize.ShloMosaic.PureOps.Ideal.Laws

noncomputable section

namespace Idealize.ShloMosaic.Rows

open Idealize.ShloMosaic Idealize.ShloMosaic.ValueIdx

variable {N K M : ℕ}

/-! ## The operand indices of a product whose right operand is contracted on its last axis -/

/-- The left operand's row is the result's row. -/
theorem trhs_lhs_0 (i : (⟨2, ![N, M]⟩ : Shape).Idx) (q : (DotDims.transposedRhs N K M).contr.Idx) :
    ((DotDims.transposedRhs N K M).lhsIdx i q 0).val = (i 0).val := by
  unfold DotDims.lhsIdx
  rw [dif_neg (show ¬(0 : Fin (⟨2, ![N, K]⟩ : Shape).rank) ∈ (DotDims.transposedRhs N K M).lhsBatch from List.not_mem_nil),
    dif_pos (show (0 : Fin (⟨2, ![N, K]⟩ : Shape).rank) ∈ (DotDims.transposedRhs N K M).lhsNonContracting from List.mem_singleton.mpr rfl)]
  rfl

/-- The left operand's column is the contraction coordinate. -/
theorem trhs_lhs_1 (i : (⟨2, ![N, M]⟩ : Shape).Idx) (q : (DotDims.transposedRhs N K M).contr.Idx) :
    ((DotDims.transposedRhs N K M).lhsIdx i q 1).val = (q ⟨0, Nat.one_pos⟩).val :=
  (DotDims.transposedRhs N K M).lhsIdx_val_of_single rfl i q

/-- The right operand's row is the result's column. -/
theorem trhs_rhs_0 (i : (⟨2, ![N, M]⟩ : Shape).Idx) (q : (DotDims.transposedRhs N K M).contr.Idx) :
    ((DotDims.transposedRhs N K M).rhsIdx i q 0).val = (i 1).val := by
  unfold DotDims.rhsIdx
  rw [dif_neg (show ¬(0 : Fin (⟨2, ![M, K]⟩ : Shape).rank) ∈ (DotDims.transposedRhs N K M).rhsBatch from List.not_mem_nil),
    dif_pos (show (0 : Fin (⟨2, ![M, K]⟩ : Shape).rank) ∈ (DotDims.transposedRhs N K M).rhsNonContracting from List.mem_singleton.mpr rfl)]
  rfl

/-- The right operand's column is the contraction coordinate. -/
theorem trhs_rhs_1 (i : (⟨2, ![N, M]⟩ : Shape).Idx) (q : (DotDims.transposedRhs N K M).contr.Idx) :
    ((DotDims.transposedRhs N K M).rhsIdx i q 1).val = (q ⟨0, Nat.one_pos⟩).val :=
  (DotDims.transposedRhs N K M).rhsIdx_val_of_single rfl i q

/-- The sum over the one contracted axis, re-indexed by its coordinate: the right operand is read at (column, k). -/
theorem trhs_sum {φ₁ φ₂ : FTy} (l : FVec Ideal ⟨2, ![N, K]⟩ φ₁) (r : FVec Ideal ⟨2, ![M, K]⟩ φ₂) (i : Fin N) (j : Fin M) :
    (∑ q : (DotDims.transposedRhs N K M).contr.Idx,
        l ((DotDims.transposedRhs N K M).lhsIdx (ix2 i j) q) * r ((DotDims.transposedRhs N K M).rhsIdx (ix2 i j) q))
      = ∑ k : Fin K, l (ix2 i k) * r (ix2 j k) := by
  rw [← Equiv.sum_comp (contrEquiv1 (DotDims.transposedRhs N K M) K rfl rfl).symm]
  refine Finset.sum_congr rfl fun k _ => ?_
  have hk := contrEquiv1_symm_val (DotDims.transposedRhs N K M) K rfl rfl k
  have el : (DotDims.transposedRhs N K M).lhsIdx (ix2 i j) ((contrEquiv1 (DotDims.transposedRhs N K M) K rfl rfl).symm k) = ix2 i k :=
    funext fun a => Fin.ext (by
      match a with
      | ⟨0, _⟩ => exact trhs_lhs_0 _ _
      | ⟨1, _⟩ => exact (trhs_lhs_1 _ _).trans hk)
  have er : (DotDims.transposedRhs N K M).rhsIdx (ix2 i j) ((contrEquiv1 (DotDims.transposedRhs N K M) K rfl rfl).symm k) = ix2 j k :=
    funext fun a => Fin.ext (by
      match a with
      | ⟨0, _⟩ => exact trhs_rhs_0 _ _
      | ⟨1, _⟩ => exact (trhs_rhs_1 _ _).trans hk)
  rw [el, er]

/-! ## The two spellings at (row, column) -/

/-- The kernel's spelling: a product contracting axis 1 of both operands into a zero accumulator, at (i, j), is
    ∑ₖ l (i,k) · r (j,k) — whatever the operands' float formats. -/
theorem matmul_trhs_apply {φ₁ φ₂ : FTy} (l : FVec Ideal ⟨2, ![N, K]⟩ φ₁) (r : FVec Ideal ⟨2, ![M, K]⟩ φ₂) (i : Fin N) (j : Fin M) :
    matmul (DotDims.transposedRhs N K M) none l r (constant ⟨2, ![N, M]⟩ .f32 0x00000000#32) (ix2 i j)
      = ∑ k : Fin K, l (ix2 i k) * r (ix2 j k) := by
  show FloatOps.matmul (DotDims.transposedRhs N K M) none l r (constant ⟨2, ![N, M]⟩ .f32 0x00000000#32) (ix2 i j) = _
  rw [Ideal.matmul_constant_zero_apply]
  exact trhs_sum l r i j

/-- The host's spelling: the weights transposed, then the plain product, at (i, j): the same sum. -/
theorem dotGeneral_transpose_apply (l : FVec Ideal ⟨2, ![N, K]⟩ .f32) (w : FVec Ideal ⟨2, ![M, K]⟩ .f32)
    (tr : (⟨2, ![M, K]⟩ : Shape).Transposes [1, 0] ⟨2, ![K, M]⟩) (i : Fin N) (j : Fin M) :
    Host.dotGeneral (DotDims.plain N K M) none l (transpose ⟨2, ![K, M]⟩ [1, 0] w tr) (ix2 i j)
      = ∑ k : Fin K, l (ix2 i k) * w (ix2 j k) := by
  rw [dotGeneral_plain_apply]
  exact Finset.sum_congr rfl fun k _ => by rw [transpose_ix2_apply]

end Idealize.ShloMosaic.Rows

end
-- ==== Proof.LibCosineSoftmax.lean ====
/-
  Cosine similarity of every row of an array against a table of class prototypes, then a softmax
  over the classes: row by row, at the ideal values, for any sizes.

  * `unitRow b v`: the vector `v` divided by its Euclidean length, the length clamped below by the
    value of the word `b`:  v d / max (√(∑ₑ v e · v e)) b.
  * `dots w u`: the inner products of `u` with every row of the table `w`:  k ↦ ∑_d u d · w (k,d).
  * `softmaxRow s`: k ↦ exp (s k − max s) / ∑ⱼ exp (s j − max s), the maximum folded from −∞.

  Each is read off the kernel's spelling (lane reductions, a unit axis added and broadcast, a product
  contracting the last axis of both operands into a zero accumulator) and off the host's
  (`reduce`, two `broadcast_in_dim`s, `dot_general`), as arrays of rows. The statements hold for
  every row count, so one lemma reads a block of rows and the whole array.
-/
import proofs.«430804_j87050397155952_3_alg».proof.Proof.LibRows
import proofs.«430804_j87050397155952_3_alg».proof.Proof.LibDotT
import Mathlib.Data.Finset.Fold

noncomputable section

namespace Idealize.ShloMosaic.Rows

open Idealize.ShloMosaic Idealize.ShloMosaic.ValueIdx

variable {N D K M : ℕ}

/-! ## More layers read row by row -/

theorem sqrt_rows (x : FVec Ideal ⟨2, ![N, K]⟩ .f32) : sqrt x = ofRows fun i k => Ideal.sqrt (rowOf x i k) :=
  ext_ix2 fun _ _ => rfl

theorem hsqrt_rows (x : FVec Ideal ⟨2, ![N, K]⟩ .f32) : Host.sqrt x = ofRows fun i k => Ideal.sqrt (rowOf x i k) :=
  ext_ix2 fun _ _ => rfl

/-- A column (one entry per row) laid along every row, the kernel's way. -/
theorem kspread_eq (a : FVec Ideal ⟨2, ![N, 1]⟩ .f32) (bc : (⟨2, ![N, 1]⟩ : Shape).Broadcasts ⟨2, ![N, M]⟩) :
    broadcastTo ⟨2, ![N, M]⟩ a bc = ofRows fun i _ => a (ix2 i (0 : Fin 1)) := by
  refine ext_ix2 fun i j => ?_
  exact broadcastTo_apply a bc (ix2 i j) (ix2 i (0 : Fin 1)) (by
    intro b
    match b with
    | ⟨0, _⟩ =>
      show i.val = if N = 1 then 0 else i.val
      split
      · have := i.isLt; omega
      · rfl
    | ⟨1, _⟩ => rfl)

/-- A column laid along every row, the host's way. -/
theorem hspread_eq (a : FVec Ideal ⟨2, ![N, 1]⟩ .f32) (b2 : (⟨2, ![N, 1]⟩ : Shape).BroadcastsInDim ⟨2, ![N, M]⟩ ![0, 1]) :
    broadcastInDim ⟨2, ![N, M]⟩ ![0, 1] b2 a = ofRows fun i _ => a (ix2 i (0 : Fin 1)) := by
  refine ext_ix2 fun i j => ?_
  exact broadcastInDim_apply ![0, 1] b2 a (ix2 i j) (ix2 i (0 : Fin 1)) (by
    intro b
    match b with
    | ⟨0, _⟩ =>
      show i.val = if N = 1 then 0 else i.val
      split
      · have := i.isLt; omega
      · rfl
    | ⟨1, _⟩ => rfl)

/-- One value per row given a unit feature axis, the host's way. -/
theorem hcol1_eq (c : FVec Ideal ⟨1, ![N]⟩ .f32) (b1 : (⟨1, ![N]⟩ : Shape).BroadcastsInDim ⟨2, ![N, 1]⟩ ![0]) :
    broadcastInDim ⟨2, ![N, 1]⟩ ![0] b1 c = ofRows fun i _ => valOf c i := by
  refine ext_ix2 fun i j => ?_
  exact broadcastInDim_apply ![0] b1 c (ix2 i j) (ix1 i) (by
    intro b
    match b with
    | ⟨0, _⟩ =>
      show i.val = if N = 1 then 0 else i.val
      split
      · have := i.isLt; omega
      · rfl)

/-- The host's product contracting the last axis of both operands, at (i, j): ∑ₖ l (i,k) · r (j,k). -/
theorem dotGeneral_trhs_apply (l : FVec Ideal ⟨2, ![N, K]⟩ .f32) (r : FVec Ideal ⟨2, ![M, K]⟩ .f32) (i : Fin N) (j : Fin M) :
    Host.dotGeneral (DotDims.transposedRhs N K M) none l r (ix2 i j) = ∑ k : Fin K, l (ix2 i k) * r (ix2 j k) := by
  show FloatOps.dotGeneral (DotDims.transposedRhs N K M) none .single l r (ix2 i j) = _
  rw [Ideal.dotGeneral_apply]
  exact trhs_sum l r i j

/-! ## A row divided by its clamped length -/

/-- `v` over its Euclidean length, the length clamped below by the value of the word `b`. -/
def unitRow (b : BitVec 32) (v : Fin D → EReal) : Fin D → EReal :=
  fun d => Ideal.div (v d) (max (Ideal.sqrt (∑ e : Fin D, v e * v e)) (Ideal.ofBits .f32 b))

/-- The kernel's spelling: the lane sum of squares, a unit axis, the root, the clamp against a splat, the column
    broadcast along the row, the quotient. -/
theorem knormalize_eq (x : FVec Ideal ⟨2, ![N, D]⟩ .f32) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩) :
    divf x (broadcastTo ⟨2, ![N, D]⟩
        (maximumf (sqrt (shapeCast ⟨2, ![N, 1]⟩ (multiReduction .add [1] ⟨1, ![N]⟩ (mulf x x) 0x00000000#32 h hφ hacc) sc))
          (broadcast ⟨2, ![N, 1]⟩ (Scalar.ofBits (F := Ideal) .f32 b))) bc)
      = ofRows fun i => unitRow b (rowOf x i) := by
  rw [mulf_rows, ksum_eq, kcol1_eq, sqrt_rows, maximumf_rows, kspread_eq, divf_rows]
  rfl

/-- The host's spelling: `reduce` from zero, `broadcast_in_dim` to a column, the root, the clamp against a broadcast
    constant, `broadcast_in_dim` along the row, the quotient. -/
theorem hnormalize_eq (x : FVec Ideal ⟨2, ![N, D]⟩ .f32) (b : BitVec 32)
    (h' : (⟨2, ![N, D]⟩ : Shape).ReducesTo [1] ⟨1, ![N]⟩) (h : (⟨2, ![N, D]⟩ : Shape).Reduces [1] ⟨1, ![N]⟩)
    (hu : 0 < (⟨0, ![]⟩ : Shape).numel)
    (b1 : (⟨1, ![N]⟩ : Shape).BroadcastsInDim ⟨2, ![N, 1]⟩ ![0])
    (b0 : (⟨0, ![]⟩ : Shape).BroadcastsInDim ⟨2, ![N, 1]⟩ ![])
    (b2 : (⟨2, ![N, 1]⟩ : Shape).BroadcastsInDim ⟨2, ![N, D]⟩ ![0, 1]) :
    Host.divf x (broadcastInDim ⟨2, ![N, D]⟩ ![0, 1] b2
        (maximumf (Host.sqrt (broadcastInDim ⟨2, ![N, 1]⟩ ![0] b1
            (Host.reduceAdd (mulf x x) (constant (F := Ideal) ⟨0, ![]⟩ .f32 0x00000000#32) h' hu)))
          (broadcastInDim ⟨2, ![N, 1]⟩ ![] b0 (constant (F := Ideal) ⟨0, ![]⟩ .f32 b))))
      = ofRows fun i => unitRow b (rowOf x i) := by
  rw [mulf_rows, hsum_eq _ h' h hu, hcol1_eq, hsqrt_rows, maximumf_rows, hspread_eq, hdivf_rows]
  rfl

/-! ## Inner products with every row of a table -/

/-- The inner products of `u` with the rows of `w`. -/
def dots (w : (⟨2, ![K, D]⟩ : Shape).Idx → EReal) (u : Fin D → EReal) : Fin K → EReal :=
  fun k => ∑ d : Fin D, u d * w (ix2 k d)

/-- The kernel's spelling, whatever the operands' float formats. -/
theorem kdots_eq {φ₁ φ₂ : FTy} (a : FVec Ideal ⟨2, ![N, D]⟩ φ₁) (w : FVec Ideal ⟨2, ![K, D]⟩ φ₂) :
    matmul (DotDims.transposedRhs N D K) none a w (constant ⟨2, ![N, K]⟩ .f32 0x00000000#32)
      = ofRows fun i => dots w fun d => a (ix2 i d) :=
  ext_ix2 fun i j => by rw [matmul_trhs_apply]; rfl

/-- The host's spelling. -/
theorem hdots_eq (a : FVec Ideal ⟨2, ![N, D]⟩ .f32) (w : FVec Ideal ⟨2, ![K, D]⟩ .f32) :
    Host.dotGeneral (DotDims.transposedRhs N D K) none a w = ofRows fun i => dots w (rowOf a i) :=
  ext_ix2 fun i j => by rw [dotGeneral_trhs_apply]; rfl

/-- The kernel's cosine scores: the rows divided by their clamped lengths, changed to a narrower float format (no change
    at the ideal values), multiplied with the table. -/
theorem kcosine_eq {φ₂ : FTy} (x : FVec Ideal ⟨2, ![N, D]⟩ .f32) (w : FVec Ideal ⟨2, ![K, D]⟩ φ₂) (b : BitVec 32)
    (h : (⟨2, ![N, D]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, D]⟩)
    (hb : FTy.bits .bf16 < FTy.bits .f32) :
    matmul (DotDims.transposedRhs N D K) none
        (truncf .bf16 (divf x (broadcastTo ⟨2, ![N, D]⟩
          (maximumf (sqrt (shapeCast ⟨2, ![N, 1]⟩ (multiReduction .add [1] ⟨1, ![N]⟩ (mulf x x) 0x00000000#32 h hφ hacc) sc))
            (broadcast ⟨2, ![N, 1]⟩ (Scalar.ofBits (F := Ideal) .f32 b))) bc)) hb)
        w (constant ⟨2, ![N, K]⟩ .f32 0x00000000#32)
      = ofRows fun i => dots w (unitRow b (rowOf x i)) := by
  rw [kdots_eq, knormalize_eq]
  rfl

/-- The host's cosine scores: both operands' rows divided by their clamped lengths, then the product. -/
theorem hcosine_eq (x : FVec Ideal ⟨2, ![N, D]⟩ .f32) (mu : FVec Ideal ⟨2, ![K, D]⟩ .f32) (b : BitVec 32) :
    Host.dotGeneral (DotDims.transposedRhs N D K) none (ofRows fun i => unitRow b (rowOf x i)) (ofRows fun k => unitRow b (rowOf mu k))
      = ofRows fun i => dots (ofRows fun k => unitRow b (rowOf mu k)) (unitRow b (rowOf x i)) := by
  rw [hdots_eq]
  rfl

/-! ## Softmax along a row -/

/-- The softmax of a row, shifted by its maximum. -/
def softmaxRow (s : Fin K → EReal) : Fin K → EReal :=
  fun k => Ideal.div (Ideal.exp (s k - rowMax s)) (∑ j : Fin K, Ideal.exp (s j - rowMax s))

/-- The fold of `max` is at least the value it starts from. -/
theorem max_init_rowMax (v : Fin M → EReal) : max (Ideal.ofBits .f32 0xFF800000#32) (rowMax v) = rowMax v :=
  max_eq_right ((Finset.le_fold_max _).mpr (Or.inl le_rfl))

/-- The kernel's numerator: exp of the row shifted by its lane maximum. -/
theorem kexpshift_eq (s : FVec Ideal ⟨2, ![N, K]⟩ .f32)
    (h : (⟨2, ![N, K]⟩ : Shape).Reduces [1] ⟨1, ![N]⟩) (hφ : FKind.Formats .f32)
    (hacc : (0xFF800000#32 : BitVec 32) = FKind.maximumf.neutral .f32 hφ)
    (sc : (⟨1, ![N]⟩ : Shape).ShapeCasts ⟨2, ![N, 1]⟩) (bc : (⟨2, ![N, 1]⟩ : Shape).Broadcasts ⟨2, ![N, K]⟩) :
    exp (subf s (broadcastTo ⟨2, ![N, K]⟩
        (shapeCast ⟨2, ![N, 1]⟩ (multiReduction .maximumf [1] ⟨1, ![N]⟩ s 0xFF800000#32 h hφ hacc) sc) bc))
      = ofRows fun i k => Ideal.exp (rowOf s i k - rowMax (rowOf s i)) := by
  rw [kmax_eq, kcol_eq, subf_rows, exp_rows]
  rfl

/-- The kernel's quotient by the lane sum. -/
theorem kdivsum_eq (v e : FVec Ideal ⟨2, ![N, K]⟩ .f32)
    (h : (⟨2, ![N, K]⟩ : Shape).Reduces [1] ⟨1, ![N]⟩) (hφ : FKind.Formats .f32)
    (hacc : (0x00000000#32 : BitVec 32) = FKind.add.neutral .f32 hφ)
    (sc : (⟨1, ![N]⟩ : Shape).ShapeCasts ⟨2, ![N, 1]⟩) (bc : (⟨2, ![N, 1]⟩ : Shape).Broadcasts ⟨2, ![N, K]⟩) :
    divf v (broadcastTo ⟨2, ![N, K]⟩
        (shapeCast ⟨2, ![N, 1]⟩ (multiReduction .add [1] ⟨1, ![N]⟩ e 0x00000000#32 h hφ hacc) sc) bc)
      = ofRows fun i k => Ideal.div (rowOf v i k) (∑ j : Fin K, rowOf e i j) := by
  rw [ksum_eq, kcol_eq, divf_rows]
  rfl

/-- The host's numerator: the row maximum from −∞, joined once more with −∞, broadcast in two steps, subtracted,
    exponentiated. -/
theorem hexpshift_eq (s : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b0 : (⟨0, ![]⟩ : Shape).BroadcastsInDim ⟨1, ![N]⟩ ![])
    (b1 : (⟨1, ![N]⟩ : Shape).BroadcastsInDim ⟨2, ![N, 1]⟩ ![0])
    (b2 : (⟨2, ![N, 1]⟩ : Shape).BroadcastsInDim ⟨2, ![N, K]⟩ ![0, 1]) :
    Host.exp (subf s (broadcastInDim ⟨2, ![N, K]⟩ ![0, 1] b2 (broadcastInDim ⟨2, ![N, 1]⟩ ![0] b1
        (maximumf (broadcastInDim ⟨1, ![N]⟩ ![] b0 (constant (F := Ideal) ⟨0, ![]⟩ .f32 0xFF800000#32))
          (Host.reduce FloatOps.maximumf s (constant (F := Ideal) ⟨0, ![]⟩ .f32 0xFF800000#32) h' hu)))))
      = ofRows fun i k => Ideal.exp (rowOf s i k - rowMax (rowOf s i)) := by
  rw [hmax_eq s h' h hu, maximumf_vals, hcol_eq, subf_rows, hexp_rows]
  refine ext_ix2 fun i k => ?_
  show Ideal.exp (s (ix2 i k) - max (Ideal.ofBits .f32 0xFF800000#32) (rowMax (rowOf s i))) = _
  rw [max_init_rowMax]
  rfl

/-- The host's quotient by the row sum. -/
theorem hdivsum_eq (v e : FVec Ideal ⟨2, ![N, K]⟩ .f32)
    (h' : (⟨2, ![N, K]⟩ : Shape).ReducesTo [1] ⟨1, ![N]⟩) (h : (⟨2, ![N, K]⟩ : Shape).Reduces [1] ⟨1, ![N]⟩)
    (hu : 0 < (⟨0, ![]⟩ : Shape).numel)
    (b1 : (⟨1, ![N]⟩ : Shape).BroadcastsInDim ⟨2, ![N, 1]⟩ ![0])
    (b2 : (⟨2, ![N, 1]⟩ : Shape).BroadcastsInDim ⟨2, ![N, K]⟩ ![0, 1]) :
    Host.divf v (broadcastInDim ⟨2, ![N, K]⟩ ![0, 1] b2 (broadcastInDim ⟨2, ![N, 1]⟩ ![0] b1
        (Host.reduceAdd e (constant (F := Ideal) ⟨0, ![]⟩ .f32 0x00000000#32) h' hu)))
      = ofRows fun i k => Ideal.div (rowOf v i k) (∑ j : Fin K, rowOf e i j) := by
  rw [hsum_eq e h' h hu, hcol_eq, hdivf_rows]
  rfl

/-- Numerator over its row sum is the softmax of the row. -/
theorem softmax_of_expshift (s : FVec Ideal ⟨2, ![N, K]⟩ .f32) :
    (ofRows fun i k => Ideal.div (rowOf (ofRows fun i k => Ideal.exp (rowOf s i k - rowMax (rowOf s i))) i k)
        (∑ j : Fin K, rowOf (ofRows fun i k => Ideal.exp (rowOf s i k - rowMax (rowOf s i))) i j))
      = (ofRows fun i => softmaxRow (rowOf s i) : FVec Ideal ⟨2, ![N, K]⟩ .f32) := rfl

/-! ## The whole operator -/

/-- Row `n` of the result: the softmax over the classes of the cosine similarities of row `n` of `x` with the rows of
    `mu`, every length clamped below by the value of the word `b`. -/
def cosineSoftmax (b : BitVec 32) (x : FVec Ideal ⟨2, ![N, D]⟩ .f32) (mu : FVec Ideal ⟨2, ![K, D]⟩ .f32) :
    FVec Ideal ⟨2, ![N, K]⟩ .f32 :=
  ofRows fun n => softmaxRow (dots (ofRows fun k => unitRow b (rowOf mu k)) (unitRow b (rowOf x n)))

end Idealize.ShloMosaic.Rows

end
-- ==== Proof.Spec.lean ====
/-
  Masked bilinear attention between two token sequences, on the extended reals.

  Every token (a hidden vector of 1024 entries) is projected by one weight matrix `w` and squashed:
  feature `a` of a token `v` is  tanh (∑ₕ v h · w (h, a)).  A left token `u` and a right token `v` score
  ∑ₐ (feat u a · d a) · feat v a  under the diagonal form `d`.  Row `l` of a batch element's score
  matrix is masked by the product  p · q r  of the left token's mask `p` and the right tokens' masks `q`,
  passed through a max-shifted softmax along `r`, and masked once more.
  The operator on whole arrays, `attn`, reads batch element `b`, left token `l`, right token `r` off the
  result index.
-/
import proofs.«430804_j87050397155952_3_alg».proof.Proof.LibCosineSoftmax
import Idealize.ShloMosaic.Lib.ValueIdx
import Idealize.ShloMosaic.PureOps.Ideal

noncomputable section

namespace Cert.MaskedAttn

open Idealize.ShloMosaic Idealize.ShloMosaic.ValueIdx Idealize.ShloMosaic.Rows

/-- Feature `a` of the token `v`: tanh of the inner product of `v` with column `a` of the weights. -/
def feat (w : (⟨2, ![1024, 1024]⟩ : Shape).Idx → EReal) (v : Fin 1024 → EReal) (a : Fin 1024) : EReal :=
  Ideal.tanh (∑ h : Fin 1024, v h * w (ix2 h a))

/-- The score of a left token `u` and a right token `v`: their features' inner product under the diagonal form `d`. -/
def score (w : (⟨2, ![1024, 1024]⟩ : Shape).Idx → EReal) (d : Fin 1024 → EReal) (u v : Fin 1024 → EReal) : EReal :=
  ∑ a : Fin 1024, feat w u a * d a * feat w v a

/-- A row of scores masked by the left token's mask `p` times each right token's mask `q r`. -/
def maskedRow (s : Fin 512 → EReal) (p : EReal) (q : Fin 512 → EReal) : Fin 512 → EReal :=
  fun r => s r * (p * q r)

/-- The masked row through the max-shifted softmax, masked again. -/
def attnRow (s : Fin 512 → EReal) (p : EReal) (q : Fin 512 → EReal) : Fin 512 → EReal :=
  fun r => softmaxRow (maskedRow s p q) r * (p * q r)

/-- The attention weight of batch element `b`'s left token `l` on its right token `r`. -/
def attnAt (x y : (⟨3, ![64, 512, 1024]⟩ : Shape).Idx → EReal) (ml mr : (⟨2, ![64, 512]⟩ : Shape).Idx → EReal)
    (w : (⟨2, ![1024, 1024]⟩ : Shape).Idx → EReal) (d : (⟨3, ![1, 1, 1024]⟩ : Shape).Idx → EReal)
    (b : Fin 64) (l r : Fin 512) : EReal :=
  attnRow
    (fun r' => score w (fun a => d (ix3 (0 : Fin 1) (0 : Fin 1) a)) (fun h => x (ix3 b l h)) (fun h => y (ix3 b r' h)))
    (ml (ix2 b l)) (fun r' => mr (ix2 b r')) r

/-- The whole operator: the array of attention weights, batch element by batch element. -/
def attn (x y : (⟨3, ![64, 512, 1024]⟩ : Shape).Idx → EReal) (ml mr : (⟨2, ![64, 512]⟩ : Shape).Idx → EReal)
    (w : (⟨2, ![1024, 1024]⟩ : Shape).Idx → EReal) (d : (⟨3, ![1, 1, 1024]⟩ : Shape).Idx → EReal) :
    (⟨3, ![64, 512, 512]⟩ : Shape).Idx → EReal :=
  fun i => attnAt x y ml mr w d (i 0) (i 1) (i 2)

theorem attn_ix3 (x y : (⟨3, ![64, 512, 1024]⟩ : Shape).Idx → EReal) (ml mr : (⟨2, ![64, 512]⟩ : Shape).Idx → EReal)
    (w : (⟨2, ![1024, 1024]⟩ : Shape).Idx → EReal) (d : (⟨3, ![1, 1, 1024]⟩ : Shape).Idx → EReal)
    (b : Fin 64) (l r : Fin 512) : attn x y ml mr w d (ix3 b l r) = attnAt x y ml mr w d b l r := rfl

/-- Masking a product by the left mask and then by the right one is masking by the two masks' product:
    multiplication of extended reals is associative (no finiteness is needed). -/
theorem mask_twice (v p q : EReal) : v * p * q = v * (p * q) := mul_assoc v p q

end Cert.MaskedAttn

end
-- ==== Proof.LibPlainAny.lean ====
/-
  A plain matrix product  a · b  (left operand N × K, right operand K × M, contracting the left operand's
  axis 1 with the right operand's axis 0) into a zero accumulator, read at (row, column) at the ideal values,
  WHATEVER THE OPERANDS' FLOAT FORMATS: at (i, j) it is the one sum  ∑ₖ a (i, k) · b (k, j).
  At the ideal values every float format is the extended reals, so a kernel that narrows its operands before
  the product computes the same sum; the statements hold for every size.
  Also: the squashing function `tanh` of an array read at an index.
-/
import proofs.«430804_j87050397155952_3_alg».proof.Proof.LibRows
import Idealize.ShloMosaic.Lib.ValueIdx
import Idealize.ShloMosaic.PureOps.Ideal.Laws

noncomputable section

namespace Idealize.ShloMosaic.Rows

open Idealize.ShloMosaic Idealize.ShloMosaic.ValueIdx

variable {N K M : ℕ}

/-- The contraction sum of a plain product re-indexed by the contracted coordinate, whatever the operands' float
    formats (at the ideal values every format is the extended reals). -/
theorem plain_sum_any {φ₁ φ₂ : FTy} (l : FVec Ideal ⟨2, ![N, K]⟩ φ₁) (r : FVec Ideal ⟨2, ![K, M]⟩ φ₂) (i : Fin N) (j : Fin M) :
    (∑ q : (DotDims.plain N K M).contr.Idx, l ((DotDims.plain N K M).lhsIdx (ix2 i j) q) * r ((DotDims.plain N K M).rhsIdx (ix2 i j) q))
      = ∑ k : Fin K, l (ix2 i k) * r (ix2 k j) := by
  rw [← Equiv.sum_comp (contrEquiv1 (DotDims.plain N K M) K rfl rfl).symm]
  refine Finset.sum_congr rfl fun k _ => ?_
  have hk := contrEquiv1_symm_val (DotDims.plain N K M) K rfl rfl k
  have el : (DotDims.plain N K M).lhsIdx (ix2 i j) ((contrEquiv1 (DotDims.plain N K M) K rfl rfl).symm k) = ix2 i k :=
    funext fun a => Fin.ext (by
      match a with
      | ⟨0, _⟩ => exact plain_lhs_0 _ _
      | ⟨1, _⟩ => exact (plain_lhs_1 _ _).trans hk)
  have er : (DotDims.plain N K M).rhsIdx (ix2 i j) ((contrEquiv1 (DotDims.plain N K M) K rfl rfl).symm k) = ix2 k j :=
    funext fun a => Fin.ext (by
      match a with
      | ⟨0, _⟩ => exact (plain_rhs_0 _ _).trans hk
      | ⟨1, _⟩ => exact plain_rhs_1 _ _)
  rw [el, er]

/-- A kernel's plain product into a zero accumulator at (i, j), whatever the operands' float formats. -/
theorem matmul_plain_any {φ₁ φ₂ : FTy} (l : FVec Ideal ⟨2, ![N, K]⟩ φ₁) (r : FVec Ideal ⟨2, ![K, M]⟩ φ₂) (i : Fin N) (j : Fin M) :
    matmul (DotDims.plain N K M) none l r (constant ⟨2, ![N, M]⟩ .f32 0x00000000#32) (ix2 i j)
      = ∑ k : Fin K, l (ix2 i k) * r (ix2 k j) := by
  show FloatOps.matmul (DotDims.plain N K M) none l r (constant ⟨2, ![N, M]⟩ .f32 0x00000000#32) (ix2 i j) = _
  rw [Ideal.matmul_constant_zero_apply]
  exact plain_sum_any l r i j

/-- The squashing function at an index. -/
theorem tanh_at {s : Shape} {φ : FTy} (x : FVec Ideal s φ) (i : s.Idx) : tanh x i = Ideal.tanh (x i) := rfl

end Idealize.ShloMosaic.Rows

end
-- ==== Proof.KernelBlock.lean ====
/-
  What one grid point of the kernel leaves in its output block is the masked bilinear attention of that
  batch element.

  The body stacks the left and the right token blocks, projects all 1024 tokens by one product with the
  weights, squashes the two halves, scales the left half by the diagonal form, and contracts the feature
  axis of the two halves: entry (l, r) is the score of left token l and right token r. The mask block is
  the outer product of the two mask rows. The masked scores go through a lane maximum, a shifted
  exponential, a lane sum and a quotient, and are masked again: the operator's row, entry by entry.
-/
import proofs.«430804_j87050397155952_3_alg».proof.Proof.Gen.KernelIdeal.Value
import proofs.«430804_j87050397155952_3_alg».proof.Proof.Spec
import proofs.«430804_j87050397155952_3_alg».proof.Proof.LibPlainAny
import Idealize.ShloMosaic.Lib.ValueLayout

set_option synthInstance.maxSize 4096

noncomputable section

namespace Cert.KernelIdeal.AttnBlock

open Cert.KernelIdeal Cert.KernelIdeal.Gen Cert.KernelIdeal.Value
open Idealize.ShloMosaic Idealize.ShloMosaic.ValueIdx Idealize.ShloMosaic.Rows Cert.MaskedAttn

variable (P0 : Vec Ideal S1024x1024 .bf16) (P1 P2 : Vec Ideal S1x512x1024 .f32) (P3 : Vec Ideal S1x1x1024 .f32)
  (P4 P5 : Vec Ideal S1x1x512 .f32)

/-! ## The body's values, named -/

/-- All 1024 tokens of the batch element (rows 0–511 the left block's, rows 512–1023 the right block's) projected by
    the weights in one product. -/
def stackedProj : FVec Ideal S1024x1024 .f32 :=
  have v1 : FVec Ideal S1024x1024 .bf16 := shapeCast S1024x1024 P0 shapeCasts_S1024x1024_S1024x1024
  have v3 : FVec Ideal S512x1024 .f32 := shapeCast S512x1024 P1 shapeCasts_S1x512x1024_S512x1024
  have v4 : FVec Ideal S512x1024 .bf16 := truncf .bf16 v3 bitsLt_bf16_f32
  have v6 : FVec Ideal S512x1024 .f32 := shapeCast S512x1024 P2 shapeCasts_S1x512x1024_S512x1024
  have v7 : FVec Ideal S512x1024 .bf16 := truncf .bf16 v6 bitsLt_bf16_f32
  have v8 : FVec Ideal S1024x1024 .bf16 := concatenate S1024x1024 0 [⟨S512x1024, v4⟩, ⟨S512x1024, v7⟩] concatenates_S512x1024_S512x1024_S1024x1024_d0
  have cst : FVec Ideal S1024x1024 .f32 := constant S1024x1024 .f32 0x00000000#32
  matmul dot_S1024x1024_S1024x1024_S1024x1024_1_0_0_1_n_n none v8 v1 cst

/-- The score matrix of the batch element: the squashed left half scaled by the diagonal form, contracted with the
    squashed right half over the feature axis. -/
def scores : FVec Ideal S512x512 .f32 :=
  have v9 : FVec Ideal S1024x1024 .f32 := stackedProj P0 P1 P2
  have v10 : FVec Ideal S512x1024 .f32 := extractStridedSlice S512x1024 ![0, 0] v9 slices_S1024x1024_o0_0_S512x1024
  have v11 : FVec Ideal S512x1024 .f32 := tanh v10
  have v12 : FVec Ideal S512x1024 .f32 := extractStridedSlice S512x1024 ![512, 0] v9 slices_S1024x1024_o512_0_S512x1024
  have v13 : FVec Ideal S512x1024 .f32 := tanh v12
  have v15 : FVec Ideal S1024 .f32 := shapeCast S1024 P3 shapeCasts_S1x1x1024_S1024
  have v16 : FVec Ideal S1x1024 .f32 := shapeCast S1x1024 v15 shapeCasts_S1024_S1x1024
  have v17 : FVec Ideal S512x1024 .f32 := broadcastTo S512x1024 v16 broadcasts_S1x1024_S512x1024
  have v18 : FVec Ideal S512x1024 .f32 := mulf v11 v17
  have v19 : FVec Ideal S512x1024 .bf16 := truncf .bf16 v18 bitsLt_bf16_f32
  have v20 : FVec Ideal S512x1024 .bf16 := truncf .bf16 v13 bitsLt_bf16_f32
  have cst_10 : FVec Ideal S512x512 .f32 := constant S512x512 .f32 0x00000000#32
  matmul dot_S512x1024_S512x1024_S512x512_1_1_0_0_n_n none v19 v20 cst_10

/-- The body's shifted exponentials over these names. -/
theorem expshift_eq : k0_pay3 P0 P1 P2 P3 P4 P5 =
    exp (subf (mulf (scores P0 P1 P2 P3) (k0_pay2 P4 P5))
      (broadcastTo S512x512 (shapeCast S512x1
        (multiReduction .maximumf [1] S512 (mulf (scores P0 P1 P2 P3) (k0_pay2 P4 P5)) 0xFF800000#32 reduces_S512x512_S512 (.inl rfl) rfl)
        shapeCasts_S512_S512x1) broadcasts_S512x1_S512x512)) := rfl

/-! ## The projections -/

/-- Row `l` of the stacked projection is the left token `l`'s. -/
theorem stackedProj_left (l : Fin 512) (a : Fin 1024) :
    stackedProj P0 P1 P2 (ix2 (⟨l.val, by have := l.isLt; omega⟩ : Fin 1024) a)
      = ∑ h : Fin 1024, P1 (ix3 (0 : Fin 1) l h) * P0 (ix2 h a) := by
  unfold stackedProj
  have hd : dot_S1024x1024_S1024x1024_S1024x1024_1_0_0_1_n_n = DotDims.plain 1024 1024 1024 := rfl
  rw [hd, matmul_plain_any]
  refine Finset.sum_congr rfl fun h _ => ?_
  rw [shapeCast_self]
  refine congrArg (· * P0 (ix2 h a)) ?_
  refine (concatenate_pair_apply_left (t := S1024x1024) (s₁ := S512x1024) (s₂ := S512x1024) 0 _ _ _ (ix2 (⟨l.val, by have := l.isLt; omega⟩ : Fin 1024) h) rfl (ix2 l h : S512x1024.Idx)
    (fun b => by match b with | ⟨0, _⟩ => rfl | ⟨1, _⟩ => rfl)).trans ?_
  exact shapeCast_apply P1 _ (ix2 l h) (ix3 (0 : Fin 1) l h) (by
    rw [Shape.rowMajor_val_three, Shape.rowMajor_val_two]
    show (0 * 512 + l.val) * 1024 + h.val = l.val * 1024 + h.val
    omega)

/-- Row `512 + r` of the stacked projection is the right token `r`'s. -/
theorem stackedProj_right (r : Fin 512) (a : Fin 1024) :
    stackedProj P0 P1 P2 (ix2 (⟨512 + r.val, by have := r.isLt; omega⟩ : Fin 1024) a)
      = ∑ h : Fin 1024, P2 (ix3 (0 : Fin 1) r h) * P0 (ix2 h a) := by
  unfold stackedProj
  have hd : dot_S1024x1024_S1024x1024_S1024x1024_1_0_0_1_n_n = DotDims.plain 1024 1024 1024 := rfl
  rw [hd, matmul_plain_any]
  refine Finset.sum_congr rfl fun h _ => ?_
  rw [shapeCast_self]
  refine congrArg (· * P0 (ix2 h a)) ?_
  refine (concatenate_pair_apply_right (t := S1024x1024) (s₁ := S512x1024) (s₂ := S512x1024) 0 _ _ _ (ix2 (⟨512 + r.val, by have := r.isLt; omega⟩ : Fin 1024) h) rfl rfl (ix2 r h : S512x1024.Idx)
    (fun b hb => by match b with | ⟨0, _⟩ => exact absurd rfl hb | ⟨1, _⟩ => rfl)
    (by show r.val + 512 = 512 + r.val; omega)).trans ?_
  exact shapeCast_apply P2 _ (ix2 r h) (ix3 (0 : Fin 1) r h) (by
    rw [Shape.rowMajor_val_three, Shape.rowMajor_val_two]
    show (0 * 512 + r.val) * 1024 + h.val = r.val * 1024 + h.val
    omega)

/-! ## The scores and the mask block -/

/-- Entry (l, r) of the score matrix is the score of left token `l` and right token `r`. -/
theorem scores_apply (l r : Fin 512) :
    scores P0 P1 P2 P3 (ix2 l r)
      = score P0 (fun a => P3 (ix3 (0 : Fin 1) (0 : Fin 1) a)) (fun h => P1 (ix3 (0 : Fin 1) l h)) (fun h => P2 (ix3 (0 : Fin 1) r h)) := by
  unfold scores
  have hd : dot_S512x1024_S512x1024_S512x512_1_1_0_0_n_n = DotDims.transposedRhs 512 1024 512 := rfl
  rw [hd, matmul_trhs_apply]
  unfold score feat
  refine Finset.sum_congr rfl fun a _ => ?_
  have e1 : extractStridedSlice S512x1024 ![0, 0] (stackedProj P0 P1 P2) slices_S1024x1024_o0_0_S512x1024 (ix2 l a)
      = stackedProj P0 P1 P2 (ix2 (⟨l.val, by have := l.isLt; omega⟩ : Fin 1024) a) :=
    extractStridedSlice_apply _ _ _ _ _ (fun c => by
      match c with
      | ⟨0, _⟩ => show l.val = 0 + l.val; omega
      | ⟨1, _⟩ => show a.val = 0 + a.val; omega)
  have e2 : extractStridedSlice S512x1024 ![512, 0] (stackedProj P0 P1 P2) slices_S1024x1024_o512_0_S512x1024 (ix2 r a)
      = stackedProj P0 P1 P2 (ix2 (⟨512 + r.val, by have := r.isLt; omega⟩ : Fin 1024) a) :=
    extractStridedSlice_apply _ _ _ _ _ (fun c => by
      match c with
      | ⟨0, _⟩ => rfl
      | ⟨1, _⟩ => show a.val = 0 + a.val; omega)
  have e3 : broadcastTo S512x1024 (shapeCast S1x1024 (shapeCast S1024 P3 shapeCasts_S1x1x1024_S1024) shapeCasts_S1024_S1x1024)
        broadcasts_S1x1024_S512x1024 (ix2 l a) = P3 (ix3 (0 : Fin 1) (0 : Fin 1) a) :=
    (broadcastTo_1b_ab_apply _ _ l a).trans ((shapeCast_a_1a_apply _ _ (0 : Fin 1) a).trans
      (shapeCast_apply P3 _ (ix1 a) (ix3 (0 : Fin 1) (0 : Fin 1) a) (by
        rw [Shape.rowMajor_val_three, Shape.rowMajor_val_one]
        show (0 * 1 + 0) * 1024 + a.val = a.val
        omega)))
  rw [truncf_apply, truncf_apply, mulf_apply, tanh_at, tanh_at, e1, e2, e3, stackedProj_left, stackedProj_right]

/-- Entry (l, r) of the mask block is the product of the left token's and the right token's masks. -/
theorem maskBlock_apply (l r : Fin 512) :
    k0_pay2 P4 P5 (ix2 l r) = P4 (ix3 (0 : Fin 1) (0 : Fin 1) l) * P5 (ix3 (0 : Fin 1) (0 : Fin 1) r) := by
  unfold k0_pay2
  dsimp only
  rw [mulf_apply]
  congr 1
  · refine (broadcastTo_apply _ _ (ix2 l r) (ix2 l (0 : Fin 1)) (fun c => by
      match c with
      | ⟨0, _⟩ => rfl
      | ⟨1, _⟩ => rfl)).trans ?_
    refine (transpose_ix2_apply _ _ l (0 : Fin 1)).trans ?_
    exact shapeCast_apply P4 _ (ix2 (0 : Fin 1) l) (ix3 (0 : Fin 1) (0 : Fin 1) l) (by
      rw [Shape.rowMajor_val_three, Shape.rowMajor_val_two]
      show (0 * 1 + 0) * 512 + l.val = 0 * 512 + l.val
      omega)
  · refine (broadcastTo_1b_ab_apply _ _ l r).trans ?_
    exact shapeCast_apply P5 _ (ix2 (0 : Fin 1) r) (ix3 (0 : Fin 1) (0 : Fin 1) r) (by
      rw [Shape.rowMajor_val_three, Shape.rowMajor_val_two]
      show (0 * 1 + 0) * 512 + r.val = 0 * 512 + r.val
      omega)

/-! ## The block -/

/-- Row `l` of the batch element's masked score matrix, in the operator's terms. -/
def maskedScores (l : Fin 512) : Fin 512 → EReal :=
  maskedRow (fun r' => score P0 (fun a => P3 (ix3 (0 : Fin 1) (0 : Fin 1) a)) (fun h => P1 (ix3 (0 : Fin 1) l h)) (fun h => P2 (ix3 (0 : Fin 1) r' h)))
    (P4 (ix3 (0 : Fin 1) (0 : Fin 1) l)) (fun r' => P5 (ix3 (0 : Fin 1) (0 : Fin 1) r'))

/-- The shifted exponentials, row by row. -/
theorem expshift_rows :
    k0_pay3 P0 P1 P2 P3 P4 P5
      = ofRows fun l r => Ideal.exp (maskedScores P0 P1 P2 P3 P4 P5 l r - rowMax (maskedScores P0 P1 P2 P3 P4 P5 l)) := by
  rw [expshift_eq]
  refine (kexpshift_eq (mulf (scores P0 P1 P2 P3) (k0_pay2 P4 P5)) reduces_S512x512_S512 (.inl rfl) rfl
    shapeCasts_S512_S512x1 broadcasts_S512x1_S512x512).trans ?_
  refine congrArg ofRows (funext fun l => ?_)
  have hrow : rowOf (mulf (scores P0 P1 P2 P3) (k0_pay2 P4 P5)) l = maskedScores P0 P1 P2 P3 P4 P5 l := funext fun r => by
    show scores P0 P1 P2 P3 (ix2 l r) * k0_pay2 P4 P5 (ix2 l r) = _
    rw [scores_apply, maskBlock_apply]
    rfl
  rw [hrow]

/-- The lane sums of the shifted exponentials, one per row. -/
theorem rowsum_rows :
    multiReduction .add [1] S512 (k0_pay3 P0 P1 P2 P3 P4 P5) 0x00000000#32 reduces_S512x512_S512 (.inl rfl) rfl
      = ofVals fun l => ∑ r : Fin 512,
          Ideal.exp (maskedScores P0 P1 P2 P3 P4 P5 l r - rowMax (maskedScores P0 P1 P2 P3 P4 P5 l)) := by
  rw [expshift_rows]
  exact ksum_eq _ reduces_S512x512_S512 (.inl rfl) rfl

/-- What the grid point leaves at block index (u, l, r): the attention weight of left token `l` on right token `r`. -/
theorem block_at (u : Fin 1) (l r : Fin 512) :
    E6 P0 P1 P2 P3 P4 P5 (ix3 u l r)
      = attnRow (fun r' => score P0 (fun a => P3 (ix3 (0 : Fin 1) (0 : Fin 1) a)) (fun h => P1 (ix3 (0 : Fin 1) l h)) (fun h => P2 (ix3 (0 : Fin 1) r' h)))
          (P4 (ix3 (0 : Fin 1) (0 : Fin 1) l)) (fun r' => P5 (ix3 (0 : Fin 1) (0 : Fin 1) r')) r := by
  have h0 : ix6_0 (ix3 u l r) = ix2 l r := funext fun a => by match a with | ⟨0, _⟩ => rfl | ⟨1, _⟩ => rfl
  have h1 : ix6_1 (ix3 u l r) = ix1 l := funext fun a => by match a with | ⟨0, _⟩ => rfl
  have h2 : ix6_2 (ix3 u l r) = ix3 (0 : Fin 1) (0 : Fin 1) l :=
    funext fun a => by match a with | ⟨0, _⟩ => rfl | ⟨1, _⟩ => rfl | ⟨2, _⟩ => rfl
  have h3 : ix6_3 (ix3 u l r) = ix3 (0 : Fin 1) (0 : Fin 1) r :=
    funext fun a => by match a with | ⟨0, _⟩ => rfl | ⟨1, _⟩ => rfl | ⟨2, _⟩ => rfl
  show FloatOps.mulf (FloatOps.divf (k0_pay3 P0 P1 P2 P3 P4 P5 (ix6_0 (ix3 u l r)))
      (multiReduction .add [1] S512 (k0_pay3 P0 P1 P2 P3 P4 P5) 0x00000000#32 reduces_S512x512_S512 (.inl rfl) rfl (ix6_1 (ix3 u l r))))
    (FloatOps.mulf (P4 (ix6_2 (ix3 u l r))) (P5 (ix6_3 (ix3 u l r)))) = _
  rw [h0, h1, h2, h3, rowsum_rows, expshift_rows]
  rfl

end Cert.KernelIdeal.AttnBlock

end
-- ==== Proof.KernelArray.lean ====
/-
  The kernel's result array is the masked bilinear attention operator of its arguments.

  Grid point `t` handles batch element `t`: it reads that element's two token blocks and its two mask
  rows (the masks re-laid to 64 × 1 × 512 before the call), the whole weight matrix (its float format
  changed before the call, which at the ideal values changes nothing) and the whole diagonal form, and
  writes back slab `t` of the result. What it writes is the operator's slab; the 64 slabs tile the
  result array, so the array ends holding the operator.
-/
import proofs.«430804_j87050397155952_3_alg».proof.Proof.KernelBlock
import Idealize.ShloMosaic.Lib.StableHlo.Run

set_option maxRecDepth 16384

noncomputable section

namespace Cert.KernelIdeal.AttnArray

open Cert.KernelIdeal Cert.KernelIdeal.Gen Cert.KernelIdeal.Value Cert.KernelIdeal.AttnBlock
open Idealize.ShloMosaic Idealize.ShloMosaic.TcCoe Idealize.ShloMosaic.ValueIdx Idealize.ShloMosaic.Rows Idealize.SL.Sem
open Idealize.ShloMosaic.StableHlo Cert.MaskedAttn
open Idealize.ShloMosaic.Pipeline (Dat)

variable (m : (ℓ : Loc nD τ sig) → Buf (Elt Ideal) ℓ) (ρ : Dev nD → PrngReg)

/-- The operator of the argument arrays as launched. -/
def result (c : Dev nD) : S64x512x512.Idx → EReal :=
  attn (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-! ## Where each window's block sits, decided over the 64 grid points -/

theorem at_left : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem at_right : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem at_left_mask : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem at_right_mask : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)
theorem at_weights : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem at_diag : ∀ t : Fin cfg0.N, win0_5.index t (0 : Fin 3) = 0 ∧ win0_5.index t (1 : Fin 3) = 0 ∧ win0_5.index t (2 : Fin 3) = 0 :=
  (by decide +kernel : ∀ t : Fin grid0.N, win0_5.index t (0 : Fin 3) = 0 ∧ win0_5.index t (1 : Fin 3) = 0 ∧ win0_5.index t (2 : Fin 3) = 0)
theorem at_out : ∀ t : Fin cfg0.N, win0_6.index t (0 : Fin 3) = t.val ∧ win0_6.index t (1 : Fin 3) = 0 ∧ win0_6.index t (2 : Fin 3) = 0 :=
  (by decide +kernel : ∀ t : Fin grid0.N, win0_6.index t (0 : Fin 3) = t.val ∧ win0_6.index t (1 : Fin 3) = 0 ∧ win0_6.index t (2 : Fin 3) = 0)

/-- The batch element a grid point handles. -/
abbrev batchOf (t : Fin cfg0.N) : Fin 64 := ⟨t.val, t.isLt⟩

/-! ## The arrays the host operations before the call leave -/

/-- The left mask re-laid to 64 × 1 × 512. -/
theorem relaid_left (c : Dev nD) :
    (V m c main_v0 : S64x1x512.Idx → EReal) = shapeCast S64x1x512 (m ((c : Thread nD τ).loc main_arg2)) shapeCasts_S64x512_S64x1x512 := by
  dsimp only [Gen.V, Gen.hostOps0]; after_results; rfl

/-- The right mask re-laid to 64 × 1 × 512. -/
theorem relaid_right (c : Dev nD) :
    (V m c main_v1 : S64x1x512.Idx → EReal) = shapeCast S64x1x512 (m ((c : Thread nD τ).loc main_arg3)) shapeCasts_S64x512_S64x1x512 := by
  dsimp only [Gen.V, Gen.hostOps0]; after_results; rfl

/-- The weights in the narrower float format: at the ideal values, the weights. -/
theorem narrowed_weights (c : Dev nD) : (V m c main_v2 : S1024x1024.Idx → EReal) = m ((c : Thread nD τ).loc main_arg4) := by
  dsimp only [Gen.V, Gen.hostOps0]; after_results; rfl

/-- An entry of a mask re-laid to 64 × 1 × 512 is the mask's entry. -/
theorem relaid_apply (x : S64x512.Idx → EReal) (b : Fin 64) (l : Fin 512) :
    shapeCast S64x1x512 x shapeCasts_S64x512_S64x1x512 (ix3 b (0 : Fin 1) l) = x (ix2 b l) :=
  shapeCast_apply x _ (ix3 b (0 : Fin 1) l) (ix2 b l) (by
    rw [Shape.rowMajor_val_two, Shape.rowMajor_val_three]
    show b.val * 512 + l.val = (b.val * 1 + 0) * 512 + l.val
    omega)

/-! ## Each window's block at a grid point -/

theorem read_left (c : Dev nD) (t : Fin cfg0.N) (u : Fin 1) (l : Fin 512) (h : Fin 1024) :
    iblk m c 0 t (ix3 u l h) = m ((c : Thread nD τ).loc main_arg0) (ix3 (batchOf t) l h) := by
  show V m c main_arg0 (((cfg0.win 0).blk t).view.emb (ix3 u l h)) = _
  rw [V_main_arg0]
  obtain ⟨f0, f1, f2⟩ := at_left t
  refine congrArg _ (funext fun a => Fin.ext ?_)
  match a with
  | ⟨0, _⟩ => show win0_0.index t (0 : Fin 3) * 1 + 1 * u.val = t.val; have := u.isLt; omega
  | ⟨1, _⟩ => show win0_0.index t (1 : Fin 3) * 512 + 1 * l.val = l.val; omega
  | ⟨2, _⟩ => show win0_0.index t (2 : Fin 3) * 1024 + 1 * h.val = h.val; omega

theorem read_right (c : Dev nD) (t : Fin cfg0.N) (u : Fin 1) (r : Fin 512) (h : Fin 1024) :
    iblk m c 1 t (ix3 u r h) = m ((c : Thread nD τ).loc main_arg1) (ix3 (batchOf t) r h) := by
  show V m c main_arg1 (((cfg0.win 1).blk t).view.emb (ix3 u r h)) = _
  rw [V_main_arg1]
  obtain ⟨f0, f1, f2⟩ := at_right t
  refine congrArg _ (funext fun a => Fin.ext ?_)
  match a with
  | ⟨0, _⟩ => show win0_1.index t (0 : Fin 3) * 1 + 1 * u.val = t.val; have := u.isLt; omega
  | ⟨1, _⟩ => show win0_1.index t (1 : Fin 3) * 512 + 1 * r.val = r.val; omega
  | ⟨2, _⟩ => show win0_1.index t (2 : Fin 3) * 1024 + 1 * h.val = h.val; omega

theorem read_left_mask (c : Dev nD) (t : Fin cfg0.N) (u v : Fin 1) (l : Fin 512) :
    iblk m c 2 t (ix3 u v l) = m ((c : Thread nD τ).loc main_arg2) (ix2 (batchOf t) l) := by
  show V m c main_v0 (((cfg0.win 2).blk t).view.emb (ix3 u v l)) = _
  obtain ⟨f0, f1, f2⟩ := at_left_mask t
  have e : ((cfg0.win 2).blk t).view.emb (ix3 u v l) = ix3 (batchOf t) (0 : Fin 1) l := funext fun a => Fin.ext (by
    match a with
    | ⟨0, _⟩ => show win0_2.index t (0 : Fin 3) * 1 + 1 * u.val = t.val; have := u.isLt; omega
    | ⟨1, _⟩ => show win0_2.index t (1 : Fin 3) * 1 + 1 * v.val = 0; have := v.isLt; omega
    | ⟨2, _⟩ => show win0_2.index t (2 : Fin 3) * 512 + 1 * l.val = l.val; omega)
  rw [e]
  exact (congrFun (relaid_left m c) _).trans (relaid_apply _ _ _)

theorem read_right_mask (c : Dev nD) (t : Fin cfg0.N) (u v : Fin 1) (r : Fin 512) :
    iblk m c 3 t (ix3 u v r) = m ((c : Thread nD τ).loc main_arg3) (ix2 (batchOf t) r) := by
  show V m c main_v1 (((cfg0.win 3).blk t).view.emb (ix3 u v r)) = _
  obtain ⟨f0, f1, f2⟩ := at_right_mask t
  have e : ((cfg0.win 3).blk t).view.emb (ix3 u v r) = ix3 (batchOf t) (0 : Fin 1) r := funext fun a => Fin.ext (by
    match a with
    | ⟨0, _⟩ => show win0_3.index t (0 : Fin 3) * 1 + 1 * u.val = t.val; have := u.isLt; omega
    | ⟨1, _⟩ => show win0_3.index t (1 : Fin 3) * 1 + 1 * v.val = 0; have := v.isLt; omega
    | ⟨2, _⟩ => show win0_3.index t (2 : Fin 3) * 512 + 1 * r.val = r.val; omega)
  rw [e]
  exact (congrFun (relaid_right m c) _).trans (relaid_apply _ _ _)

theorem read_weights (c : Dev nD) (t : Fin cfg0.N) (i : S1024x1024.Idx) :
    iblk m c 4 t i = m ((c : Thread nD τ).loc main_arg4) i := by
  show V m c main_v2 (((cfg0.win 4).blk t).view.emb i) = _
  obtain ⟨f0, f1⟩ := at_weights t
  have e : ((cfg0.win 4).blk t).view.emb i = i := funext fun a => Fin.ext (by
    match a with
    | ⟨0, _⟩ => show win0_4.index t (0 : Fin 2) * 1024 + 1 * (i 0).val = (i 0).val; omega
    | ⟨1, _⟩ => show win0_4.index t (1 : Fin 2) * 1024 + 1 * (i 1).val = (i 1).val; omega)
  rw [e]
  exact congrFun (narrowed_weights m c) i

theorem read_diag (c : Dev nD) (t : Fin cfg0.N) (i : S1x1x1024.Idx) :
    iblk m c 5 t i = m ((c : Thread nD τ).loc main_arg5) i := by
  show V m c main_arg5 (((cfg0.win 5).blk t).view.emb i) = _
  rw [V_main_arg5]
  obtain ⟨f0, f1, f2⟩ := at_diag t
  refine congrArg _ (funext fun a => Fin.ext ?_)
  match a with
  | ⟨0, _⟩ => show win0_5.index t (0 : Fin 3) * 1 + 1 * (i 0).val = (i 0).val; omega
  | ⟨1, _⟩ => show win0_5.index t (1 : Fin 3) * 1 + 1 * (i 1).val = (i 1).val; omega
  | ⟨2, _⟩ => show win0_5.index t (2 : Fin 3) * 1024 + 1 * (i 2).val = (i 2).val; omega

/-! ## The block a grid point writes back -/

theorem hz2 : (![0, 0] : Fin 2 → Nat) = fun _ => 0 := funext fun a => by fin_cases a <;> rfl
theorem hz3 : (![0, 0, 0] : Fin 3 → Nat) = fun _ => 0 := funext fun a => by fin_cases a <;> rfl

/-- The output buffer after the body, from the six input blocks: every load reads its whole block. -/
theorem out_eq (x0 x1 : Vec Ideal S1x512x1024 .f32) (x2 x3 : Vec Ideal S1x1x512 .f32) (x4 : Vec Ideal S1024x1024 .bf16)
    (x5 : Vec Ideal S1x1x1024 .f32) : out0_6 x0 x1 x2 x3 x4 x5 = E6 x4 x0 x1 x5 x2 x3 := by
  unfold out0_6
  simp only [View.ld_unit_zero (S := S1024x1024) hz2, View.ld_unit_zero (S := S1x512x1024) hz3,
    View.ld_unit_zero (S := S1x1x1024) hz3, View.ld_unit_zero (S := S1x1x512) hz3]
  exact funext fun y => canon6_eq x4 x0 x1 x5 x2 x3 y

/-- From input blocks that are batch element `b`'s slices of the arrays, the body leaves the operator's slab `b`. -/
theorem slab_of_blocks (X Y : S64x512x1024.Idx → EReal) (ML MR : S64x512.Idx → EReal) (W : S1024x1024.Idx → EReal)
    (D : S1x1x1024.Idx → EReal) (b : Fin 64)
    (x0 x1 : Vec Ideal S1x512x1024 .f32) (x2 x3 : Vec Ideal S1x1x512 .f32) (x4 : Vec Ideal S1024x1024 .bf16)
    (x5 : Vec Ideal S1x1x1024 .f32)
    (h0 : ∀ (u : Fin 1) (l : Fin 512) (h : Fin 1024), x0 (ix3 u l h) = X (ix3 b l h))
    (h1 : ∀ (u : Fin 1) (r : Fin 512) (h : Fin 1024), x1 (ix3 u r h) = Y (ix3 b r h))
    (h2 : ∀ (u v : Fin 1) (l : Fin 512), x2 (ix3 u v l) = ML (ix2 b l))
    (h3 : ∀ (u v : Fin 1) (r : Fin 512), x3 (ix3 u v r) = MR (ix2 b r))
    (h4 : ∀ i, x4 i = W i) (h5 : ∀ i, x5 i = D i) (u : Fin 1) (l r : Fin 512) :
    out0_6 x0 x1 x2 x3 x4 x5 (ix3 u l r) = attn X Y ML MR W D (ix3 b l r) := by
  rw [out_eq, block_at, attn_ix3]
  simp only [attnAt, attnRow, maskedRow, score, feat, h0, h1, h2, h3, h4, h5]

/-- WHAT POINT `t` WRITES BACK is slab `t` of the operator of the arguments. -/
theorem flushed_eq (c : Dev nD) (t : Fin cfg0.N) :
    (dats m 0 c).flushed 6 t = ((cfg0.win 6).blk t).view.read (Elt Ideal) (result m c) := by
  rw [Value.flushed6]
  obtain ⟨f0, f1, f2⟩ := at_out t
  funext y
  have hy0 : (y 0).val < 1 := (y 0).isLt
  have hy1 : (y 1).val < 512 := (y 1).isLt
  have hy2 : (y 2).val < 512 := (y 2).isLt
  have ey : y = ix3 (⟨(y 0).val, hy0⟩ : Fin 1) (⟨(y 1).val, hy1⟩ : Fin 512) (⟨(y 2).val, hy2⟩ : Fin 512) :=
    funext fun a => by match a with | ⟨0, _⟩ => rfl | ⟨1, _⟩ => rfl | ⟨2, _⟩ => rfl
  show out0_6 (iblk m c 0 t) (iblk m c 1 t) (iblk m c 2 t) (iblk m c 3 t) (iblk m c 4 t) (iblk m c 5 t) y
    = result m c (((cfg0.win 6).blk t).view.emb y)
  rw [ey]
  refine (slab_of_blocks (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (batchOf t)
    (iblk m c 0 t) (iblk m c 1 t) (iblk m c 2 t) (iblk m c 3 t) (iblk m c 4 t) (iblk m c 5 t)
    (read_left m c t) (read_right m c t) (read_left_mask m c t) (read_right_mask m c t) (read_weights m c t) (read_diag m c t)
    _ _ _).trans ?_
  refine congrArg (result m c) (funext fun a => Fin.ext ?_)
  match a with
  | ⟨0, _⟩ => show t.val = win0_6.index t (0 : Fin 3) * 1 + 1 * (y 0).val; omega
  | ⟨1, _⟩ => show (y 1).val = win0_6.index t (1 : Fin 3) * 512 + 1 * (y 1).val; omega
  | ⟨2, _⟩ => show (y 2).val = win0_6.index t (2 : Fin 3) * 512 + 1 * (y 2).val; omega

/-! ## The slabs tile the result array -/

/-- An index of the result array is in point `t`'s slab iff each coordinate is in the slab's range on its axis. -/
theorem mem_slab (t : Fin cfg0.N) (i : S64x512x512.Idx) :
    i ∈ ((cfg0.win 6).blk t).view.set ↔ ∀ a : Fin 3, win0_6.index t a * S1x512x512.size a ≤ (i a).val
      ∧ (i a).val < win0_6.index t a * S1x512x512.size a + S1x512x512.size a := by
  show i ∈ ((View.whole main_v3).slice (win0_6.rect t)).set ↔ _
  rw [View.set_slice_whole, Rect.mem_set_unit]
  exact Iff.rfl

/-- Every index of the result array lies in the slab of the point its batch coordinate names. -/
theorem covered (i : S64x512x512.Idx) :
    ∃ t : Fin cfg0.N, (cfg0.win 6).flush t = true ∧ i ∈ ((cfg0.win 6).blk t).view.set := by
  have hi0 : (i 0).val < 64 := (i 0).isLt
  have hi1 : (i 1).val < 512 := (i 1).isLt
  have hi2 : (i 2).val < 512 := (i 2).isLt
  refine ⟨⟨(i 0).val, hi0⟩, flush0_6 _, ?_⟩
  obtain ⟨f0, f1, f2⟩ := at_out ⟨(i 0).val, hi0⟩
  rw [mem_slab]
  intro a
  match a with
  | ⟨0, _⟩ =>
    show win0_6.index ⟨(i 0).val, hi0⟩ (0 : Fin 3) * 1 ≤ (i 0).val ∧ (i 0).val < win0_6.index ⟨(i 0).val, hi0⟩ (0 : Fin 3) * 1 + 1
    have f0' : win0_6.index ⟨(i 0).val, hi0⟩ (0 : Fin 3) = (i 0).val := f0
    omega
  | ⟨1, _⟩ =>
    show win0_6.index ⟨(i 0).val, hi0⟩ (1 : Fin 3) * 512 ≤ (i 1).val ∧ (i 1).val < win0_6.index ⟨(i 0).val, hi0⟩ (1 : Fin 3) * 512 + 512
    omega
  | ⟨2, _⟩ =>
    show win0_6.index ⟨(i 0).val, hi0⟩ (2 : Fin 3) * 512 ≤ (i 2).val ∧ (i 2).val < win0_6.index ⟨(i 0).val, hi0⟩ (2 : Fin 3) * 512 + 512
    omega

/-- THE RESULT ARRAY after the run is the operator of the arguments. -/
theorem final (c : Dev nD) : (dats m 0 c).arrAt 6 cfg0.N = result m c :=
  (dats m 0 c).arrAt_eq_of_cover 6 (result m c) (fun t _ => flushed_eq m c t) covered

/-- The kernel's run: the result array ends at the operator of the arguments, the arguments unchanged. -/
theorem run : θ_run defs (onTc (τ := τ) (main (F := Ideal))) ⟨m, fun _ => 0, ρ⟩ fun r => ∀ c : Dev nD,
      r.2.mem ((c : Thread nD τ).loc main_v3) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.AttnArray

end
-- ==== Proof.RefSide.lean ====
/-
  The reference's result is the masked bilinear attention operator.

  Read stage by stage, at batch element `b`, left token `l`, right token `r`:
  the two projections and their product over the feature axis are the score of the tokens; the two mask
  products in a row are one product with the masks' product (associativity); the row maximum folded from
  −∞ and joined once more with −∞ is the row maximum; the exponentials of the shifted row over their sum,
  masked again, are the operator's row.
-/
import proofs.«430804_j87050397155952_3_alg».proof.Proof.Gen.ReferenceIdeal.Read
import proofs.«430804_j87050397155952_3_alg».proof.Proof.Spec
import Idealize.ShloMosaic.PureOps.Reduce

noncomputable section

namespace Cert.ReferenceIdeal.AttnRef

open Cert.ReferenceIdeal Cert.ReferenceIdeal.Gen Cert.ReferenceIdeal.Read
open Idealize.ShloMosaic Idealize.ShloMosaic.ValueIdx Idealize.ShloMosaic.Rows Cert.MaskedAttn

variable (x0 x1 : (⟨S64x512x1024, .f32⟩ : BufTy).Contents (Elt Ideal)) (x2 x3 : (⟨S64x512, .f32⟩ : BufTy).Contents (Elt Ideal))
  (x4 : (⟨S1024x1024, .f32⟩ : BufTy).Contents (Elt Ideal)) (x5 : (⟨S1x1x1024, .f32⟩ : BufTy).Contents (Elt Ideal))

/-! ## The masks laid over the score matrix -/

/-- The left mask broadcast over the right-token axis reads the left token's mask. -/
theorem left_mask_first (b : Fin 64) (l r : Fin 512) : val_main_v8 (F := Ideal) x2 (ix3 b l r) = x2 (ix2 b l) := by
  rw [val_main_v8_apply, val_main_v7_apply]
  exact congrArg x2 (funext fun a => by match a with | ⟨0, _⟩ => rfl | ⟨1, _⟩ => rfl)

/-- The right mask broadcast over the left-token axis reads the right token's mask. -/
theorem right_mask_first (b : Fin 64) (l r : Fin 512) : val_main_v11 (F := Ideal) x3 (ix3 b l r) = x3 (ix2 b r) := by
  rw [val_main_v11_apply, val_main_v10_apply]
  exact congrArg x3 (funext fun a => by match a with | ⟨0, _⟩ => rfl | ⟨1, _⟩ => rfl)

theorem left_mask_second (b : Fin 64) (l r : Fin 512) : val_main_v25 (F := Ideal) x2 (ix3 b l r) = x2 (ix2 b l) := by
  rw [val_main_v25_apply, val_main_v24_apply]
  exact congrArg x2 (funext fun a => by match a with | ⟨0, _⟩ => rfl | ⟨1, _⟩ => rfl)

theorem right_mask_second (b : Fin 64) (l r : Fin 512) : val_main_v28 (F := Ideal) x3 (ix3 b l r) = x3 (ix2 b r) := by
  rw [val_main_v28_apply, val_main_v27_apply]
  exact congrArg x3 (funext fun a => by match a with | ⟨0, _⟩ => rfl | ⟨1, _⟩ => rfl)

/-! ## The score matrix -/

/-- The batched product of the scaled left features with the right features is the tokens' score. -/
theorem score_at (b : Fin 64) (l r : Fin 512) :
    val_main_v6 (F := Ideal) x0 x1 x4 x5 (ix3 b l r)
      = score x4 (fun a => x5 (ix3 (0 : Fin 1) (0 : Fin 1) a)) (fun h => x0 (ix3 b l h)) (fun h => x1 (ix3 b r h)) := by
  rw [val_main_v6_apply]
  unfold score feat
  refine Finset.sum_congr rfl fun k _ => ?_
  rw [val_main_v5_apply, val_main_v1_apply, val_main_v0_apply, val_main_v4_apply, val_main_v3_apply, val_main_v2_apply]
  have e1 : ∀ h : Fin 1024, lidx_main_v0 (lidx_main_v6 (ix3 b l r) k) h = ix3 b l h := fun h =>
    funext fun a => by match a with | ⟨0, _⟩ => rfl | ⟨1, _⟩ => rfl | ⟨2, _⟩ => rfl
  have e2 : ∀ h : Fin 1024, ridx_main_v0 (lidx_main_v6 (ix3 b l r) k) h = ix2 h k := fun h =>
    funext fun a => by match a with | ⟨0, _⟩ => rfl | ⟨1, _⟩ => rfl
  have e3 : idx_main_v4 (lidx_main_v6 (ix3 b l r) k) = ix3 (0 : Fin 1) (0 : Fin 1) k :=
    funext fun a => by match a with | ⟨0, _⟩ => rfl | ⟨1, _⟩ => rfl | ⟨2, _⟩ => rfl
  have e4 : ∀ h : Fin 1024, lidx_main_v2 (ridx_main_v6 (ix3 b l r) k) h = ix3 b r h := fun h =>
    funext fun a => by match a with | ⟨0, _⟩ => rfl | ⟨1, _⟩ => rfl | ⟨2, _⟩ => rfl
  have e5 : ∀ h : Fin 1024, ridx_main_v2 (ridx_main_v6 (ix3 b l r) k) h = ix2 h k := fun h =>
    funext fun a => by match a with | ⟨0, _⟩ => rfl | ⟨1, _⟩ => rfl
  simp only [e1, e2, e3, e4, e5]
  rfl

/-- The score matrix under both masks, in the operator's spelling. -/
theorem masked_at (b : Fin 64) (l r : Fin 512) :
    val_main_v12 (F := Ideal) x0 x1 x2 x3 x4 x5 (ix3 b l r)
      = maskedRow (fun r' => score x4 (fun a => x5 (ix3 (0 : Fin 1) (0 : Fin 1) a)) (fun h => x0 (ix3 b l h)) (fun h => x1 (ix3 b r' h)))
          (x2 (ix2 b l)) (fun r' => x3 (ix2 b r')) r := by
  rw [val_main_v12_apply, val_main_v9_apply, score_at, left_mask_first, right_mask_first]
  exact mask_twice _ _ _

/-! ## The row maximum and the shifted exponentials -/

/-- Dropping the right-token axis of the score array leaves the (batch, left token) array. -/
theorem reduces_right : S64x512x512.Reduces [2] S64x512 := by decide

/-- The index over (b, l) with the right-token coordinate `k` put back. -/
theorem lift_right (b : Fin 64) (l k : Fin 512) : reduces_right.lift (ix2 b l) k = ix3 b l k :=
  funext fun a => Fin.ext (by match a with | ⟨0, _⟩ => rfl | ⟨1, _⟩ => rfl | ⟨2, _⟩ => rfl)

/-- A reduction by `max` from −∞ over the right-token axis is the fold of `max` from −∞ over the row. -/
theorem reduce_max_row (V : (⟨S64x512x512, .f32⟩ : BufTy).Contents (Elt Ideal)) (b : Fin 64) (l : Fin 512) :
    Host.reduce (FloatOps.maximumf (F := Ideal) (φ := .f32)) V (val_main_cst (F := Ideal)) reducesTo_S64x512x512_S64x512_d2 h_S_ (ix2 b l)
      = rowMax (fun r => V (ix3 b l r)) := by
  rw [Host.reduce_eq_fold_single (FloatOps.maximumf (F := Ideal) (φ := .f32)) V _ reducesTo_S64x512x512_S64x512_d2 reduces_right h_S_]
  have hf : (V ∘ reduces_right.lift (ix2 b l)) = fun r : Fin 512 => V (ix3 b l r) :=
    funext fun k => congrArg V (lift_right b l k)
  rw [hf]
  rfl

/-- The reduction over the right-token axis is the fold of `max` from −∞ over the row. -/
theorem rowmax_at (b : Fin 64) (l : Fin 512) :
    val_main_v13 (F := Ideal) x0 x1 x2 x3 x4 x5 (ix2 b l)
      = rowMax (fun r => val_main_v12 (F := Ideal) x0 x1 x2 x3 x4 x5 (ix3 b l r)) :=
  reduce_max_row (val_main_v12 (F := Ideal) x0 x1 x2 x3 x4 x5) b l

/-- The shift broadcast over the row: the row maximum (joining it with −∞ once more changes nothing). -/
theorem shift_at (b : Fin 64) (l r : Fin 512) :
    val_main_v17 (F := Ideal) x0 x1 x2 x3 x4 x5 (ix3 b l r)
      = rowMax (fun r' => val_main_v12 (F := Ideal) x0 x1 x2 x3 x4 x5 (ix3 b l r')) := by
  rw [val_main_v17_apply, val_main_v16_apply, val_main_v15_apply, val_main_v14_apply, val_main_cst_0_apply]
  have e : idx_main_v16 (idx_main_v17 (ix3 b l r)) = ix2 b l :=
    funext fun a => by match a with | ⟨0, _⟩ => rfl | ⟨1, _⟩ => rfl
  rw [e, rowmax_at]
  exact max_init_rowMax _

/-- The exponential of the masked score shifted by its row's maximum. -/
theorem expshift_at (b : Fin 64) (l r : Fin 512) :
    val_main_v19 (F := Ideal) x0 x1 x2 x3 x4 x5 (ix3 b l r)
      = Ideal.exp (val_main_v12 (F := Ideal) x0 x1 x2 x3 x4 x5 (ix3 b l r)
          - rowMax (fun r' => val_main_v12 (F := Ideal) x0 x1 x2 x3 x4 x5 (ix3 b l r'))) := by
  rw [val_main_v19_apply, val_main_v18_apply, shift_at]
  rfl

/-- The row sum of the shifted exponentials, broadcast over the row. -/
theorem rowsum_at (b : Fin 64) (l r : Fin 512) :
    val_main_v22 (F := Ideal) x0 x1 x2 x3 x4 x5 (ix3 b l r)
      = ∑ k : Fin 512, val_main_v19 (F := Ideal) x0 x1 x2 x3 x4 x5 (ix3 b l k) := by
  rw [val_main_v22_apply, val_main_v21_apply, val_main_v20_apply, val_main_cst_1_apply]
  have e : idx_main_v21 (idx_main_v22 (ix3 b l r)) = ix2 b l :=
    funext fun a => by match a with | ⟨0, _⟩ => rfl | ⟨1, _⟩ => rfl
  rw [e]
  show Ideal.ofBits .f32 0x00000000#32 + _ = _
  rw [Ideal.ofBits_zero_f32, zero_add]
  refine Finset.sum_congr rfl fun k _ => ?_
  exact congrArg (val_main_v19 (F := Ideal) x0 x1 x2 x3 x4 x5)
    (funext fun a => by match a with | ⟨0, _⟩ => rfl | ⟨1, _⟩ => rfl | ⟨2, _⟩ => rfl)

/-! ## The result -/

/-- The reference's result array is the masked bilinear attention operator of its arguments. -/
theorem result_eq : val_main_v29 (F := Ideal) x0 x1 x2 x3 x4 x5 = attn x0 x1 x2 x3 x4 x5 := by
  funext i
  obtain ⟨b, l, r, rfl⟩ : ∃ (b : Fin 64) (l r : Fin 512), i = ix3 b l r := ⟨i 0, i 1, i 2, eq_ix3 i⟩
  rw [attn_ix3, val_main_v29_apply, val_main_v26_apply, val_main_v23_apply, rowsum_at, left_mask_second, right_mask_second]
  simp only [expshift_at, masked_at]
  exact mask_twice _ _ _

end Cert.ReferenceIdeal.AttnRef

end
-- ==== Proof.lean ====
/-
  The kernel computes masked bilinear attention between two token sequences, batch element by batch
  element, and so does the reference: both results are one function of the arguments on the extended reals.

  For batch element b, left token l and right token r the weight is
      softmax over r of  s(l, r) · (ml(b, l) · mr(b, r)),   times   ml(b, l) · mr(b, r),
  where  s(l, r) = ∑ₐ (tanh (∑ₕ x(b,l,h) · w(h,a)) · d(a)) · tanh (∑ₕ y(b,r,h) · w(h,a))  and the softmax is shifted
  by the row maximum.
  * The kernel handles one batch element per grid point: it stacks the two token blocks, projects them in one
    product, and contracts the two squashed halves; its mask block is the outer product of the two mask rows
    (Proof/KernelBlock.lean). The 64 slabs it writes tile the result (Proof/KernelArray.lean).
  * The reference projects the two sequences separately with batched products and multiplies by the two masks
    one after the other; (v · p) · q = v · (p · q) on the extended reals, and joining a row maximum with −∞ once
    more changes nothing (Proof/RefSide.lean).
  Only associativity and commutativity are used, so the inputs' finiteness is never opened. The frames of the two
  kernel programs are the generated ones; the reference's frame is its generated run with the result dropped;
  the idealization rewrote nothing, so `preserves` is trivial.
-/
import proofs.«430804_j87050397155952_3_alg».proof.Defs
import proofs.«430804_j87050397155952_3_alg».proof.Proof.Gen.Kernel
import proofs.«430804_j87050397155952_3_alg».proof.Proof.Gen.Kernel.Skeleton
import proofs.«430804_j87050397155952_3_alg».proof.Proof.Gen.Kernel.Launch
import proofs.«430804_j87050397155952_3_alg».proof.Proof.Gen.Kernel.Points
import proofs.«430804_j87050397155952_3_alg».proof.Proof.Gen.Kernel.Frame
import proofs.«430804_j87050397155952_3_alg».proof.Proof.Gen.KernelIdeal
import proofs.«430804_j87050397155952_3_alg».proof.Proof.Gen.KernelIdeal.Skeleton
import proofs.«430804_j87050397155952_3_alg».proof.Proof.Gen.KernelIdeal.Launch
import proofs.«430804_j87050397155952_3_alg».proof.Proof.Gen.KernelIdeal.Points
import proofs.«430804_j87050397155952_3_alg».proof.Proof.Gen.KernelIdeal.Frame
import proofs.«430804_j87050397155952_3_alg».proof.Proof.Gen.ReferenceIdeal
import proofs.«430804_j87050397155952_3_alg».proof.Proof.Gen.Pre_finite_inputs
import proofs.«430804_j87050397155952_3_alg».proof.Proof.Gen.KernelIdeal.Value
import proofs.«430804_j87050397155952_3_alg».proof.Proof.Gen.ReferenceIdeal.Run
import proofs.«430804_j87050397155952_3_alg».proof.Proof.Gen.ReferenceIdeal.Read
import proofs.«430804_j87050397155952_3_alg».proof.Proof.KernelArray
import proofs.«430804_j87050397155952_3_alg».proof.Proof.RefSide
import Idealize.ShloMosaic.Adequacy
import Idealize.ShloMosaic.Init

noncomputable section

namespace Cert.Proof

open Idealize.ShloMosaic Idealize.SL.Sem

/-- Both idealized programs, run from memories that agree on the arguments, end with the masked bilinear attention
    operator of those arguments in their result arrays. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.KernelIdeal.AttnArray.result m c, Cert.KernelIdeal.AttnArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v29_eq, Cert.ReferenceIdeal.AttnRef.result_eq]
  obtain ⟨a0, a1, a2, a3, a4, a5⟩ := hagree c
  rw [a0, a1, a2, a3, a4, a5]
  rfl

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run Cert.ReferenceIdeal.defs _ _).mono (fun _ h c => (h c).2) (Cert.ReferenceIdeal.Value.run (F := Ideal) m ρ),
  trivial,
  algebraic⟩

end Cert.Proof

end
